-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v27)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v27) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v50) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S2x1250000 : Shape := ⟨2, ![2, 1250000]⟩
abbrev S1250000 : Shape := ⟨1, ![1250000]⟩
abbrev S64x64 : Shape := ⟨2, ![64, 64]⟩
abbrev S64 : Shape := ⟨1, ![64]⟩
abbrev S_ : Shape := ⟨0, ![]⟩
abbrev S1x1250000 : Shape := ⟨2, ![1, 1250000]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S1250000 : S_.BroadcastsInDim S1250000 (![] : Fin 0 → Fin S1250000.rank)
  reducesTo_S1250000_S_d0 : S1250000.ReducesTo [0] S_
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  slices_S2x1250000_S1x1250000_0_0 : S2x1250000.Slices ![0, 0] S1x1250000
  shapeCasts_S1x1250000_S1250000 : S1x1250000.ShapeCasts S1250000

variable [Facts]

def fn_part1 {F : FTy → Type} [FloatOps F] (main_arg1 : IVec S2x1250000 32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : IVec S1x1250000 32 := (extractStridedSlice S1x1250000 ![0, 0] · slices_S2x1250000_S1x1250000_0_0) main_arg1
  let main_v20 : IVec S1250000 32 := shapeCast S1250000 main_v19 shapeCasts_S1x1250000_S1250000
  let main_c_6 : IVec S_ 32 := constantI S_ 32 0#32
  let main_v21 : IVec S1250000 32 := broadcastInDim S1250000 ![] bcast_S_S1250000 main_c_6
  let main_v22 : IVec S1250000 1 := cmpi .sge main_v20 main_v21
  let main_v23 : IVec S1x1250000 32 := (extractStridedSlice S1x1250000 ![0, 0] · slices_S2x1250000_S1x1250000_0_0) main_arg1
  let main_v24 : IVec S1250000 32 := shapeCast S1250000 main_v23 shapeCasts_S1x1250000_S1250000
  let main_c_7 : IVec S_ 32 := constantI S_ 32 50000#32
  let main_v25 : IVec S1250000 32 := broadcastInDim S1250000 ![] bcast_S_S1250000 main_c_7
  let main_v26 : IVec S1250000 1 := cmpi .slt main_v24 main_v25
  let main_v27 : IVec S1250000 1 := andi main_v22 main_v26
  let main_c_8 : IVec S_ 1 := constantI S_ 1 1#1
  let main_v28 : IVec S_ 1 := (fun x v => Host.reduce IntOp.andi x v reducesTo_S1250000_S_d0 h_S_) main_v27 main_c_8
  let main_v29 : IVec S_ 1 := andi main_v18 main_v28
  main_v29

def fn {F : FTy → Type} [FloatOps F] (main_arg0 : FVec F S50000x64 .f32) (main_arg1 : IVec S2x1250000 32) (main_arg2 : FVec F S1250000 .f32) (main_arg3 : FVec F S64x64 .f32) (main_arg4 : FVec F S64 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S1250000 .f32 := Host.absf main_arg2
  let main_cst_0 : FVec F S_ .f32 := constant S_ .f32 0x7F800000#32
  let main_v5 : FVec F S1250000 .f32 := broadcastInDim S1250000 ![] bcast_S_S1250000 main_cst_0
  let main_v6 : IVec S1250000 1 := cmpf .olt main_v4 main_v5
  let main_c_1 : IVec S_ 1 := constantI S_ 1 1#1
  let main_v7 : IVec S_ 1 := (fun x v => Host.reduce IntOp.andi x v reducesTo_S1250000_S_d0 h_S_) main_v6 main_c_1
  let main_v8 : IVec S_ 1 := andi main_v3 main_v7
  let main_v9 : FVec F S64x64 .f32 := Host.absf main_arg3
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg1 main_v13 main_v16
-- ==== Kernel.lean ====
abbrev S50000x64 : Shape := ⟨2, ![50000, 64]⟩
abbrev S2x1250000 : Shape := ⟨2, ![2, 1250000]⟩
abbrev S1250000 : Shape := ⟨1, ![1250000]⟩
abbrev S64x64 : Shape := ⟨2, ![64, 64]⟩
abbrev S64 : Shape := ⟨1, ![64]⟩
abbrev S50000 : Shape := ⟨1, ![50000]⟩
abbrev S1x1250000 : Shape := ⟨2, ![1, 1250000]⟩
abbrev S1300000 : Shape := ⟨1, ![1300000]⟩
abbrev S_ : Shape := ⟨0, ![]⟩
abbrev S1300000x1 : Shape := ⟨2, ![1300000, 1]⟩
abbrev S50000x1 : Shape := ⟨2, ![50000, 1]⟩
abbrev S5000x64 : Shape := ⟨2, ![5000, 64]⟩
abbrev S5000x1 : Shape := ⟨2, ![5000, 1]⟩
abbrev S1 : Shape := ⟨1, ![1]⟩
abbrev S1x1 : Shape := ⟨2, ![1, 1]⟩
abbrev S1300000x64 : Shape := ⟨2, ![1300000, 64]⟩
abbrev S1x64 : Shape := ⟨2, ![1, 64]⟩

abbrev nBuf : Space → Nat
  | .hbm => 60
  | .vmem => 14
  | .smem => 0
  | _ => 0

abbrev bufTy : (tb : Table) → Fin (tcTables nBuf tb) → BufTy
  | .hbm, ⟨0, _⟩ => ⟨S50000x64, .f32⟩
  | .hbm, ⟨1, _⟩ => ⟨S2x1250000, .i32⟩
  | .hbm, ⟨2, _⟩ => ⟨S1250000, .f32⟩
  | .hbm, ⟨3, _⟩ => ⟨S64x64, .f32⟩
  | .hbm, ⟨4, _⟩ => ⟨S64, .f32⟩
  | .hbm, ⟨5, _⟩ => ⟨S50000, .i32⟩
  | .hbm, ⟨6, _⟩ => ⟨S1x1250000, .i32⟩
  | .hbm, ⟨7, _⟩ => ⟨S1250000, .i32⟩
  | .hbm, ⟨8, _⟩ => ⟨S1300000, .i32⟩
  | .hbm, ⟨9, _⟩ => ⟨S1x1250000, .i32⟩
  | .hbm, ⟨10, _⟩ => ⟨S1250000, .i32⟩
  | .hbm, ⟨11, _⟩ => ⟨S1300000, .i32⟩
  | .hbm, ⟨12, _⟩ => ⟨S_, .f32⟩
  | .hbm, ⟨13, _⟩ => ⟨S50000, .f32⟩
  | .hbm, ⟨14, _⟩ => ⟨S1300000, .f32⟩
  | .hbm, ⟨15, _⟩ => ⟨S_, .f32⟩
  | .hbm, ⟨16, _⟩ => ⟨S50000, .f32⟩
  | .hbm, ⟨17, _⟩ => ⟨S1300000x1, .i32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S50000, .i1⟩
  | .hbm, ⟨22, _⟩ => ⟨S50000, .f32⟩
  | .hbm, ⟨23, _⟩ => ⟨S_, .f32⟩
  | .hbm, ⟨24, _⟩ => ⟨S50000, .f32⟩
  | .hbm, ⟨25, _⟩ => ⟨S50000, .f32⟩
  | .hbm, ⟨26, _⟩ => ⟨S50000x1, .f32⟩
  | .hbm, ⟨27, _⟩ => ⟨S50000x64, .f32⟩
  | .hbm, ⟨28, _⟩ => ⟨S_, .i32⟩
  | .hbm, ⟨29, _⟩ => ⟨S1300000, .i32⟩
  | .hbm, ⟨30, _⟩ => ⟨S1300000, .i1⟩
  | .hbm, ⟨31, _⟩ => ⟨S_, .i32⟩
  | .hbm, ⟨32, _⟩ => ⟨S1300000, .i32⟩
  | .hbm, ⟨33, _⟩ => ⟨S1300000, .i32⟩
  | .hbm, ⟨34, _⟩ => ⟨S1300000, .i32⟩
  | .hbm, ⟨35, _⟩ => ⟨S1300000x1, .i32⟩
  | .hbm, ⟨36, _⟩ => ⟨S1, .i32⟩
  | .hbm, ⟨37, _⟩ => ⟨S_, .i32⟩
  | .hbm, ⟨38, _⟩ => ⟨S1300000x1, .i32⟩
  | .hbm, ⟨39, _⟩ => ⟨S1300000x1, .i1⟩
  | .hbm, ⟨40, _⟩ => ⟨S1x1, .i32⟩
  | .hbm, ⟨41, _⟩ => ⟨S1300000x1, .i32⟩
  | .hbm, ⟨42, _⟩ => ⟨S1300000x1, .i1⟩
  | .hbm, ⟨43, _⟩ => ⟨S1300000x1, .i1⟩
  | .hbm, ⟨44, _⟩ => ⟨S_, .i1⟩
  | .hbm, ⟨45, _⟩ => ⟨S1300000, .i1⟩
  | .hbm, ⟨46, _⟩ => ⟨S1300000x64, .f32⟩
  | .hbm, ⟨47, _⟩ => ⟨S1300000x64, .i1⟩
  | .hbm, ⟨48, _⟩ => ⟨S_, .f32⟩
  | .hbm, ⟨49, _⟩ => ⟨S1300000x64, .f32⟩
  | .hbm, ⟨50, _⟩ => ⟨S1300000x64, .f32⟩
  | .hbm, ⟨51, _⟩ => ⟨S1300000x1, .f32⟩
  | .hbm, ⟨52, _⟩ => ⟨S1300000x64, .f32⟩
  | .hbm, ⟨53, _⟩ => ⟨S1300000x64, .f32⟩
  | .hbm, ⟨54, _⟩ => ⟨S_, .f32⟩
  | .hbm, ⟨55, _⟩ => ⟨S50000x64, .f32⟩
  | .hbm, ⟨56, _⟩ => ⟨S1300000x1, .i32⟩
  | .hbm, ⟨57, _⟩ => ⟨S50000x64, .f32⟩
  | .hbm, ⟨58, _⟩ => ⟨S1x64, .f32⟩
  | .hbm, ⟨59, _⟩ => ⟨S50000x64, .f32⟩
  | .local _ .vmem, ⟨0, _⟩ => ⟨S5000x64, .f32⟩
  | .local _ .vmem, ⟨1, _⟩ => ⟨S5000x64, .f32⟩
  | .local _ .vmem, ⟨2, _⟩ => ⟨S64x64, .f32⟩
  | .local _ .vmem, ⟨3, _⟩ => ⟨S5000x1, .f32⟩
  | .local _ .vmem, ⟨4, _⟩ => ⟨S5000x1, .f32⟩
  | .local _ .vmem, ⟨5, _⟩ => ⟨S5000x64, .f32⟩
  | .local _ .vmem, ⟨6, _⟩ => ⟨S5000x64, .f32⟩
  | .local _ .vmem, ⟨7, _⟩ => ⟨S5000x64, .f32⟩
  | .local _ .vmem, ⟨8, _⟩ => ⟨S5000x64, .f32⟩
  | .local _ .vmem, ⟨9, _⟩ => ⟨S5000x1, .f32⟩
  | .local _ .vmem, ⟨10, _⟩ => ⟨S5000x1, .f32⟩
  | .local _ .vmem, ⟨11, _⟩ => ⟨S1x64, .f32⟩
  | .local _ .vmem, ⟨12, _⟩ => ⟨S5000x64, .f32⟩
  | .local _ .vmem, ⟨13, _⟩ => ⟨S5000x64, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_call1_c : Ref sig .tc := ⟨.hbm, 28, rfl⟩
abbrev main_call1_v0 : Ref sig .tc := ⟨.hbm, 29, rfl⟩
abbrev main_call1_v1 : Ref sig .tc := ⟨.hbm, 30, rfl⟩
abbrev main_call1_c_0 : Ref sig .tc := ⟨.hbm, 31, rfl⟩
abbrev main_call1_v2 : Ref sig .tc := ⟨.hbm, 32, rfl⟩
abbrev main_call1_v3 : Ref sig .tc := ⟨.hbm, 33, rfl⟩
abbrev main_call1_v4 : Ref sig .tc := ⟨.hbm, 34, rfl⟩
abbrev main_call1_v5 : Ref sig .tc := ⟨.hbm, 35, rfl⟩
abbrev main_call1_c_1 : Ref sig .tc := ⟨.hbm, 36, rfl⟩
abbrev main_call1_c_2 : Ref sig .tc := ⟨.hbm, 37, rfl⟩
abbrev main_call1_v6 : Ref sig .tc := ⟨.hbm, 38, rfl⟩
abbrev main_call1_v7 : Ref sig .tc := ⟨.hbm, 39, rfl⟩
abbrev main_call1_v8 : Ref sig .tc := ⟨.hbm, 40, rfl⟩
abbrev main_call1_v9 : Ref sig .tc := ⟨.hbm, 41, rfl⟩
abbrev main_call1_v10 : Ref sig .tc := ⟨.hbm, 42, rfl⟩
abbrev main_call1_v11 : Ref sig .tc := ⟨.hbm, 43, rfl⟩
abbrev main_call1_c_3 : Ref sig .tc := ⟨.hbm, 44, rfl⟩
abbrev main_call1_v12 : Ref sig .tc := ⟨.hbm, 45, rfl⟩
abbrev main_call1_v13 : Ref sig .tc := ⟨.hbm, 46, rfl⟩
abbrev main_call1_v14 : Ref sig .tc := ⟨.hbm, 47, rfl⟩
abbrev main_call1_cst : Ref sig .tc := ⟨.hbm, 48, rfl⟩
abbrev main_call1_v15 : Ref sig .tc := ⟨.hbm, 49, rfl⟩
abbrev main_v19 : Ref sig .tc := ⟨.hbm, 50, rfl⟩
abbrev main_v20 : Ref sig .tc := ⟨.hbm, 51, rfl⟩
abbrev main_v21 : Ref sig .tc := ⟨.hbm, 52, rfl⟩
abbrev main_v22 : Ref sig .tc := ⟨.hbm, 53, rfl⟩
abbrev main_cst_3 : Ref sig .tc := ⟨.hbm, 54, rfl⟩
abbrev main_v23 : Ref sig .tc := ⟨.hbm, 55, rfl⟩
abbrev main_v24 : Ref sig .tc := ⟨.hbm, 56, rfl⟩
abbrev main_v25 : Ref sig .tc := ⟨.hbm, 57, rfl⟩
abbrev main_v26 : Ref sig .tc := ⟨.hbm, 58, rfl⟩
abbrev main_v27 : Ref sig .tc := ⟨.hbm, 59, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg3_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem3_1 : DmaSem sig := 13

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S5000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  slices_S2x1250000_S1x1250000_0_0 : S2x1250000.Slices ![0, 0] S1x1250000
  shapeCasts_S1x1250000_S1250000 : S1x1250000.ShapeCasts S1250000
  concatenates_S1250000_S50000_S1300000_d0 : Shape.Concatenates [S1250000, S50000] S1300000 0
  slices_S2x1250000_S1x1250000_1_0 : S2x1250000.Slices ![1, 0] S1x1250000
  bcast_S_S50000 : S_.BroadcastsInDim S50000 (![] : Fin 0 → Fin S50000.rank)
  bcast_S1300000_S1300000x1_0 : S1300000.BroadcastsInDim S1300000x1 (![0] : Fin 1 → Fin S1300000x1.rank)
  shapeCasts_S50000_S50000x1 : S50000.ShapeCasts S50000x1
  inb_S5000x64_S5000x64_0_0 : ∀ a, (![0, 0] : Fin 2 → Nat) a + S5000x64.size a ≤ S5000x64.size a
  h_S5000x64 : 0 < S5000x64.numel
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x64 : S5000x1.Broadcasts S5000x64
  bcast_S_S1300000 : S_.BroadcastsInDim S1300000 (![] : Fin 0 → Fin S1300000.rank)
  bcast_S_S1300000x1 : S_.BroadcastsInDim S1300000x1 (![] : Fin 0 → Fin S1300000x1.rank)
  bcast_S1_S1x1_1 : S1.BroadcastsInDim S1x1 (![1] : Fin 1 → Fin S1x1.rank)
  bcast_S1x1_S1300000x1_0_1 : S1x1.BroadcastsInDim S1300000x1 (![0, 1] : Fin 2 → Fin S1300000x1.rank)
  reducesTo_S1300000x1_S1300000_d1 : S1300000x1.ReducesTo [1] S1300000
  h_S_ : 0 < S_.numel
  bcast_S1300000_S1300000x64_0 : S1300000.BroadcastsInDim S1300000x64 (![0] : Fin 1 → Fin S1300000x64.rank)
  bcast_S_S1300000x64 : S_.BroadcastsInDim S1300000x64 (![] : Fin 0 → Fin S1300000x64.rank)
  bcast_S1300000x1_S1300000x64_0_1 : S1300000x1.BroadcastsInDim S1300000x64 (![0, 1] : Fin 2 → Fin S1300000x64.rank)
  bcast_S_S50000x64 : S_.BroadcastsInDim S50000x64 (![] : Fin 0 → Fin S50000x64.rank)
  shapeCasts_S64_S1x64 : S64.ShapeCasts S1x64
  shapeCasts_S5000x64_S5000x64 : S5000x64.ShapeCasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  scatter_S50000_S1300000x1_S1300000_n_0_0_1_wf : ScatterDims.WF S50000 S1300000x1 S1300000 [] [0] [0] 1
  dot_S5000x64_S64x64_S5000x64_1_0_0_1_n_n_wf : DotDims.WF S5000x64 S64x64 S5000x64 [1] [0] [0] [1] [] []
  gather_S50000x64_S1300000x1_S1300000x64_1_0_n_n_0_1_164_wf : GatherDims.WF S50000x64 S1300000x1 S1300000x64 [1] [0] [] [0] [] 1 ![1, 64]
  scatter_S50000x64_S1300000x1_S1300000x64_1_0_0_1_wf : ScatterDims.WF S50000x64 S1300000x1 S1300000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S50000x64.size a
  hwx0_0 : ∀ i : grid0.Coords, EltTy.bits .f32 = 32 ∨ (Rect.block (s := S50000x64) S5000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S50000x1.size a
  hwx0_2 : ∀ i : grid0.Coords, EltTy.bits .f32 = 32 ∨ (Rect.block (s := S50000x1) S5000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x64.size a ≤ S50000x64.size a
  hwx0_3 : ∀ i : grid0.Coords, EltTy.bits .f32 = 32 ∨ (Rect.block (s := S50000x64) S5000x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S50000x64.size a
  hwx1_0 : ∀ i : grid1.Coords, EltTy.bits .f32 = 32 ∨ (Rect.block (s := S50000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S50000x1.size a
  hwx1_1 : ∀ i : grid1.Coords, EltTy.bits .f32 = 32 ∨ (Rect.block (s := S50000x1) S5000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x64.size a ≤ S50000x64.size a
  hwx1_3 : ∀ i : grid1.Coords, EltTy.bits .f32 = 32 ∨ (Rect.block (s := S50000x64) S5000x64.size (cc1_transform_3 i) (hinb1_3 i)).WholeWords (EltTy.packing .f32)

variable [Facts₀]

def scatter_S50000_S1300000x1_S1300000_n_0_0_1 : ScatterDims S50000 S1300000x1 S1300000 where
  updateWindowDims := []
  insertedWindowDims := [0]
  scatterDimsToOperandDims := [0]
  indexVectorDim := 1
  wf := scatter_S50000_S1300000x1_S1300000_n_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def gather_S50000x64_S1300000x1_S1300000x64_1_0_n_n_0_1_164 : GatherDims S50000x64 S1300000x1 S1300000x64 where
  offsetDims := [1]
  collapsedSliceDims := [0]
  operandBatchingDims := []
  startIndicesBatchingDims := []
  startIndexMap := [0]
  indexVectorDim := 1
  sliceSizes := ![1, 64]
  wf := gather_S50000x64_S1300000x1_S1300000x64_1_0_n_n_0_1_164_wf
def scatter_S50000x64_S1300000x1_S1300000x64_1_0_0_1 : ScatterDims S50000x64 S1300000x1 S1300000x64 where
  updateWindowDims := [1]
  insertedWindowDims := [0]
  scatterDimsToOperandDims := [0]
  indexVectorDim := 1
  wf := scatter_S50000x64_S1300000x1_S1300000x64_1_0_0_1_wf

abbrev win0_0 : Pipeline.Window sig grid0 :=
  Pipeline.Window.ofSpec (Memref.whole main_arg0) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v17) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v18) S5000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v25) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v17) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v26) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v27) S5000x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S50000x64 : Shape := ⟨2, ![50000, 64]⟩
abbrev S2x1250000 : Shape := ⟨2, ![2, 1250000]⟩
abbrev S1250000 : Shape := ⟨1, ![1250000]⟩
abbrev S64x64 : Shape := ⟨2, ![64, 64]⟩
abbrev S64 : Shape := ⟨1, ![64]⟩
abbrev S50000 : Shape := ⟨1, ![50000]⟩
abbrev S1x1250000 : Shape := ⟨2, ![1, 1250000]⟩
abbrev S1300000 : Shape := ⟨1, ![1300000]⟩
abbrev S_ : Shape := ⟨0, ![]⟩
abbrev S1300000x1 : Shape := ⟨2, ![1300000, 1]⟩
abbrev S1300000x64 : Shape := ⟨2, ![1300000, 64]⟩
abbrev S1x64 : Shape := ⟨2, ![1, 64]⟩

abbrev nBuf : Space → Nat
  | .hbm => 69
  | .vmem => 0
  | .smem => 0
  | _ => 0

abbrev bufTy : (tb : Table) → Fin (tcTables nBuf tb) → BufTy
  | .hbm, ⟨0, _⟩ => ⟨S50000x64, .f32⟩
  | .hbm, ⟨1, _⟩ => ⟨S2x1250000, .i32⟩
  | .hbm, ⟨2, _⟩ => ⟨S1250000, .f32⟩
  | .hbm, ⟨3, _⟩ => ⟨S64x64, .f32⟩
  | .hbm, ⟨4, _⟩ => ⟨S64, .f32⟩
  | .hbm, ⟨5, _⟩ => ⟨S50000, .i32⟩
  | .hbm, ⟨6, _⟩ => ⟨S1x1250000, .i32⟩
  | .hbm, ⟨7, _⟩ => ⟨S1250000, .i32⟩
  | .hbm, ⟨8, _⟩ => ⟨S1300000, .i32⟩
  | .hbm, ⟨9, _⟩ => ⟨S1x1250000, .i32⟩
  | .hbm, ⟨10, _⟩ => ⟨S1250000, .i32⟩
  | .hbm, ⟨11, _⟩ => ⟨S1300000, .i32⟩
  | .hbm, ⟨12, _⟩ => ⟨S_, .f32⟩
  | .hbm, ⟨13, _⟩ => ⟨S50000, .f32⟩
  | .hbm, ⟨14, _⟩ => ⟨S1300000, .f32⟩
  | .hbm, ⟨15, _⟩ => ⟨S_, .f32⟩
  | .hbm, ⟨16, _⟩ => ⟨S50000, .f32⟩
  | .hbm, ⟨17, _⟩ => ⟨S1300000x1, .i32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S50000, .i1⟩
  | .hbm, ⟨22, _⟩ => ⟨S50000, .f32⟩
  | .hbm, ⟨23, _⟩ => ⟨S_, .f32⟩
  | .hbm, ⟨24, _⟩ => ⟨S50000, .f32⟩
  | .hbm, ⟨25, _⟩ => ⟨S50000, .f32⟩
  | .hbm, ⟨26, _⟩ => ⟨S_, .i32⟩
  | .hbm, ⟨27, _⟩ => ⟨S1300000, .i32⟩
  | .hbm, ⟨28, _⟩ => ⟨S1300000, .i1⟩
  | .hbm, ⟨29, _⟩ => ⟨S_, .i32⟩
  | .hbm, ⟨30, _⟩ => ⟨S1300000, .i32⟩
  | .hbm, ⟨31, _⟩ => ⟨S1300000, .i32⟩
  | .hbm, ⟨32, _⟩ => ⟨S1300000, .i32⟩
  | .hbm, ⟨33, _⟩ => ⟨S1300000x1, .i32⟩
  | .hbm, ⟨34, _⟩ => ⟨S1300000, .f32⟩
  | .hbm, ⟨35, _⟩ => ⟨S1300000, .f32⟩
  | .hbm, ⟨36, _⟩ => ⟨S_, .i32⟩
  | .hbm, ⟨37, _⟩ => ⟨S1300000, .i32⟩
  | .hbm, ⟨38, _⟩ => ⟨S1300000, .i1⟩
  | .hbm, ⟨39, _⟩ => ⟨S_, .i32⟩
  | .hbm, ⟨40, _⟩ => ⟨S1300000, .i32⟩
  | .hbm, ⟨41, _⟩ => ⟨S1300000, .i32⟩
  | .hbm, ⟨42, _⟩ => ⟨S1300000, .i32⟩
  | .hbm, ⟨43, _⟩ => ⟨S1300000x1, .i32⟩
  | .hbm, ⟨44, _⟩ => ⟨S1300000, .f32⟩
  | .hbm, ⟨45, _⟩ => ⟨S1300000, .f32⟩
  | .hbm, ⟨46, _⟩ => ⟨S50000x64, .f32⟩
  | .hbm, ⟨47, _⟩ => ⟨S_, .i32⟩
  | .hbm, ⟨48, _⟩ => ⟨S1300000, .i32⟩
  | .hbm, ⟨49, _⟩ => ⟨S1300000, .i1⟩
  | .hbm, ⟨50, _⟩ => ⟨S_, .i32⟩
  | .hbm, ⟨51, _⟩ => ⟨S1300000, .i32⟩
  | .hbm, ⟨52, _⟩ => ⟨S1300000, .i32⟩
  | .hbm, ⟨53, _⟩ => ⟨S1300000, .i32⟩
  | .hbm, ⟨54, _⟩ => ⟨S1300000x1, .i32⟩
  | .hbm, ⟨55, _⟩ => ⟨S1300000x64, .f32⟩
  | .hbm, ⟨56, _⟩ => ⟨S1300000x1, .f32⟩
  | .hbm, ⟨57, _⟩ => ⟨S1300000x64, .f32⟩
  | .hbm, ⟨58, _⟩ => ⟨S1300000x64, .f32⟩
  | .hbm, ⟨59, _⟩ => ⟨S_, .f32⟩
  | .hbm, ⟨60, _⟩ => ⟨S50000x64, .f32⟩
  | .hbm, ⟨61, _⟩ => ⟨S1300000x1, .i32⟩
  | .hbm, ⟨62, _⟩ => ⟨S50000x64, .f32⟩
  | .hbm, ⟨63, _⟩ => ⟨S1x64, .f32⟩
  | .hbm, ⟨64, _⟩ => ⟨S50000x64, .f32⟩
  | .hbm, ⟨65, _⟩ => ⟨S50000x64, .f32⟩
  | .hbm, ⟨66, _⟩ => ⟨S_, .f32⟩
  | .hbm, ⟨67, _⟩ => ⟨S50000x64, .f32⟩
  | .hbm, ⟨68, _⟩ => ⟨S50000x64, .f32⟩
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_v16 : Ref sig .tc := ⟨.hbm, 25, rfl⟩
abbrev main_c : Ref sig .tc := ⟨.hbm, 26, rfl⟩
abbrev main_v17 : Ref sig .tc := ⟨.hbm, 27, rfl⟩
abbrev main_v18 : Ref sig .tc := ⟨.hbm, 28, rfl⟩
abbrev main_c_3 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_c_4 : Ref sig .tc := ⟨.hbm, 36, rfl⟩
abbrev main_v25 : Ref sig .tc := ⟨.hbm, 37, rfl⟩
abbrev main_v26 : Ref sig .tc := ⟨.hbm, 38, rfl⟩
abbrev main_c_5 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_c_6 : Ref sig .tc := ⟨.hbm, 47, rfl⟩
abbrev main_v34 : Ref sig .tc := ⟨.hbm, 48, rfl⟩
abbrev main_v35 : Ref sig .tc := ⟨.hbm, 49, rfl⟩
abbrev main_c_7 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_cst_8 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_call1_cst : Ref sig .tc := ⟨.hbm, 66, rfl⟩
abbrev main_call1_v0 : Ref sig .tc := ⟨.hbm, 67, rfl⟩
abbrev main_v50 : Ref sig .tc := ⟨.hbm, 68, rfl⟩

abbrev nD : Nat := 1
abbrev τ : Topo := Topo.v7x

variable {F : FTy → Type} [FloatOps F]

class Facts₀ : Prop where
  slices_S2x1250000_S1x1250000_0_0 : S2x1250000.Slices ![0, 0] S1x1250000
  shapeCasts_S1x1250000_S1250000 : S1x1250000.ShapeCasts S1250000
  concatenates_S1250000_S50000_S1300000_d0 : Shape.Concatenates [S1250000, S50000] S1300000 0
  slices_S2x1250000_S1x1250000_1_0 : S2x1250000.Slices ![1, 0] S1x1250000
  bcast_S_S50000 : S_.BroadcastsInDim S50000 (![] : Fin 0 → Fin S50000.rank)
  bcast_S1300000_S1300000x1_0 : S1300000.BroadcastsInDim S1300000x1 (![0] : Fin 1 → Fin S1300000x1.rank)
  bcast_S_S1300000 : S_.BroadcastsInDim S1300000 (![] : Fin 0 → Fin S1300000.rank)
  bcast_S1300000x1_S1300000x64_0_1 : S1300000x1.BroadcastsInDim S1300000x64 (![0, 1] : Fin 2 → Fin S1300000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  scatter_S50000_S1300000x1_S1300000_n_0_0_1_wf : ScatterDims.WF S50000 S1300000x1 S1300000 [] [0] [0] 1
  gather_S50000_S1300000x1_S1300000_n_0_n_n_0_1_1_wf : GatherDims.WF S50000 S1300000x1 S1300000 [] [0] [] [0] [] 1 ![1]
  dot_S50000x64_S64x64_S50000x64_1_0_0_1_n_n_wf : DotDims.WF S50000x64 S64x64 S50000x64 [1] [0] [0] [1] [] []
  gather_S50000x64_S1300000x1_S1300000x64_1_0_n_n_0_1_164_wf : GatherDims.WF S50000x64 S1300000x1 S1300000x64 [1] [0] [] [0] [] 1 ![1, 64]
  scatter_S50000x64_S1300000x1_S1300000x64_1_0_0_1_wf : ScatterDims.WF S50000x64 S1300000x1 S1300000x64 [1] [0] [0] 1

variable [Facts₀]

def scatter_S50000_S1300000x1_S1300000_n_0_0_1 : ScatterDims S50000 S1300000x1 S1300000 where
  updateWindowDims := []
  insertedWindowDims := [0]
  scatterDimsToOperandDims := [0]
  indexVectorDim := 1
  wf := scatter_S50000_S1300000x1_S1300000_n_0_0_1_wf
def gather_S50000_S1300000x1_S1300000_n_0_n_n_0_1_1 : GatherDims S50000 S1300000x1 S1300000 where
  offsetDims := []
  collapsedSliceDims := [0]
  operandBatchingDims := []
  startIndicesBatchingDims := []
  startIndexMap := [0]
  indexVectorDim := 1
  sliceSizes := ![1]
  wf := gather_S50000_S1300000x1_S1300000_n_0_n_n_0_1_1_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf
def gather_S50000x64_S1300000x1_S1300000x64_1_0_n_n_0_1_164 : GatherDims S50000x64 S1300000x1 S1300000x64 where
  offsetDims := [1]
  collapsedSliceDims := [0]
  operandBatchingDims := []
  startIndicesBatchingDims := []
  startIndexMap := [0]
  indexVectorDim := 1
  sliceSizes := ![1, 64]
  wf := gather_S50000x64_S1300000x1_S1300000x64_1_0_n_n_0_1_164_wf
def scatter_S50000x64_S1300000x1_S1300000x64_1_0_0_1 : ScatterDims S50000x64 S1300000x1 S1300000x64 where
  updateWindowDims := [1]
  insertedWindowDims := [0]
  scatterDimsToOperandDims := [0]
  indexVectorDim := 1
  wf := scatter_S50000x64_S1300000x1_S1300000x64_1_0_0_1_wf

class Facts : Prop extends Facts₀ where

variable [Facts]
-- ==== Proof.Regions.lean ====
/-
  What the two kernel regions compute, as whole-array functions at the ideal instance.

  The program is a graph convolution with self loops and symmetric normalisation. With
  xw = x · W (a 50000 × 64 product contracted over 64 columns) and a per-node factor d:
    * the first region writes  P[u, c] = xw[u, c] · d[u]        (`scaledProj`), ten row blocks of 5000;
    * the second region writes  out[v, c] = max (acc[v, c] · d[v] + b[c]) 0   (`finalize`), again ten row blocks,
  where acc is the edge-weighted scatter-sum of gathered rows of P that the host computes between the two regions.
  The node factor reaches both regions as a 50000 × 1 column and the bias as a 1 × 64 row.
-/
import proofs.«409217_j82686710383106_3_alg».proof.KernelIdeal
import proofs.«409217_j82686710383106_3_alg».proof.ReferenceIdeal
import proofs.«409217_j82686710383106_3_alg».proof.Proof.Gen.KernelIdeal
import proofs.«409217_j82686710383106_3_alg».proof.Proof.Gen.ReferenceIdeal.Read
import Idealize.ShloMosaic.Lib.ValueIdx
import Idealize.ShloMosaic.PureOps.Ideal

noncomputable section

namespace Cert.Gcn

open Idealize.ShloMosaic Idealize.ShloMosaic.ValueIdx

/-- Row `u` of the product `x · W` scaled by the node factor of `u`: the first region's result array. The
    product is the reference's own contraction, so that both programs speak of one term. -/
def scaledProj (x : FVec Ideal Cert.KernelIdeal.S50000x64 .f32) (W : FVec Ideal Cert.KernelIdeal.S64x64 .f32)
    (d2 : FVec Ideal Cert.KernelIdeal.S50000x1 .f32) : FVec Ideal Cert.KernelIdeal.S50000x64 .f32 :=
  fun i => Cert.ReferenceIdeal.Read.val_main_v33 (F := Ideal) x W i * d2 (ix2 (i 0) 0)

/-- The accumulated messages of node `v`, scaled by the node factor of `v`, plus the bias, clipped below at zero:
    the second region's result array. -/
def finalize (acc : FVec Ideal Cert.KernelIdeal.S50000x64 .f32) (d2 : FVec Ideal Cert.KernelIdeal.S50000x1 .f32)
    (b2 : FVec Ideal Cert.KernelIdeal.S1x64 .f32) : FVec Ideal Cert.KernelIdeal.S50000x64 .f32 :=
  fun i => max (acc i * d2 (ix2 (i 0) 0) + b2 (ix2 0 (i 1))) (Ideal.ofBits .f32 0x00000000#32)

end Cert.Gcn

end
-- ==== Proof.Indexing.lean ====
/-
  Reading the index-driven host operations at one element.

  Both programs gather rows (or entries) of a 50000-row table at an index vector `v` of 1300000 signed 32-bit words, after
  NumPy's wrap of a negative word (`v + 50000` where `v < 0`), and scatter-add 1300000 update rows into 50000 rows at a
  second index vector. A gather reads its start index signed and CLAMPED into the table; a scatter reads it signed and
  drops an update that leaves the table. The kernel's row gather is `jnp.take` in its default mode: it gathers, and
  replaces by a fill word every row whose wrapped index is outside `[0, 49999]`.

  For an index word already in `[0, 50000)` the wrap does nothing, the clamp does nothing, the fill mask is set, and all
  three gathers read the table at that row.
-/
import proofs.«409217_j82686710383106_3_alg».proof.Proof.Gen.KernelIdeal
import proofs.«409217_j82686710383106_3_alg».proof.Proof.Gen.ReferenceIdeal
import Idealize.ShloMosaic.Lib.ValueIdx
import Idealize.ShloMosaic.Lib.StableHlo.Predicate
import Idealize.ShloMosaic.PureOps.Ideal

noncomputable section

namespace Cert.Gcn

open Idealize.ShloMosaic Idealize.ShloMosaic.ValueIdx
open Cert.KernelIdeal.Facts₀

/-- NumPy's reading of a negative index: `v + 50000` where `v < 0`, else `v`. -/
def wrapIdx (v : IVec Cert.KernelIdeal.S1300000 32) : IVec Cert.KernelIdeal.S1300000 32 :=
  select (cmpi .slt v (broadcastInDim Cert.KernelIdeal.S1300000 ![] bcast_S_S1300000 (constantI Cert.KernelIdeal.S_ 32 0#32)))
    (addi v (broadcastInDim Cert.KernelIdeal.S1300000 ![] bcast_S_S1300000 (constantI Cert.KernelIdeal.S_ 32 50000#32))) v

/-- The wrapped index vector as the one-column array of start indices a gather takes. -/
def startCol (v : IVec Cert.KernelIdeal.S1300000 32) : IVec Cert.KernelIdeal.S1300000x1 32 :=
  broadcastInDim Cert.KernelIdeal.S1300000x1 ![0] bcast_S1300000_S1300000x1_0 (wrapIdx v)

/-- The kernel's row gather: the rows of `tbl` at the wrapped indices, a row whose wrapped index is outside
    `[0, 49999]` replaced by the fill word. -/
def takeRows (tbl : FVec Ideal Cert.KernelIdeal.S50000x64 .f32) (v : IVec Cert.KernelIdeal.S1300000 32) : FVec Ideal Cert.KernelIdeal.S1300000x64 .f32 :=
  select
    (broadcastInDim Cert.KernelIdeal.S1300000x64 ![0] bcast_S1300000_S1300000x64_0
      (Host.reduce IntOp.andi
        (andi (cmpi .sge (startCol v) (broadcastInDim Cert.KernelIdeal.S1300000x1 ![] bcast_S_S1300000x1 (constantI Cert.KernelIdeal.S_ 32 0#32)))
          (cmpi .sle (startCol v) (broadcastInDim Cert.KernelIdeal.S1300000x1 ![0, 1] bcast_S1x1_S1300000x1_0_1
            (broadcastInDim Cert.KernelIdeal.S1x1 ![1] bcast_S1_S1x1_1 (constantI Cert.KernelIdeal.S1 32 49999#32)))))
        (constantI Cert.KernelIdeal.S_ 1 1#1) reducesTo_S1300000x1_S1300000_d1 h_S_))
    (Host.gather Cert.KernelIdeal.gather_S50000x64_S1300000x1_S1300000x64_1_0_n_n_0_1_164 tbl (startCol v))
    (broadcastInDim Cert.KernelIdeal.S1300000x64 ![] bcast_S_S1300000x64 (constant (F := Ideal) Cert.KernelIdeal.S_ .f32 0x7FC00000#32))

/-- Compared signed against zero, a non-negative word is not below it. -/
theorem slt_zero_of_nonneg (w : BitVec 32) (h0 : 0 ≤ w.toInt) : IntOp.cmpi .slt w 0#32 = 0#1 := by
  have hz : (0#32 : BitVec 32).toInt = 0 := by decide
  have hb : w.slt 0#32 = false := by
    simp only [BitVec.slt, hz, decide_eq_false_iff_not]; omega
  simp only [IntOp.cmpi, hb]; rfl

/-- A non-negative index word is its own wrap. -/
theorem wrapIdx_of_nonneg (v : IVec Cert.KernelIdeal.S1300000 32) (e : Cert.KernelIdeal.S1300000.Idx) (h0 : 0 ≤ (v e).toInt) :
    wrapIdx v e = v e := by
  show Scalar.select (IntOp.cmpi .slt (v e) 0#32) _ (v e) = v e
  rw [slt_zero_of_nonneg _ h0, select_zero]

/-- The row of the table an in-range index word names. -/
abbrev rowOf (w : BitVec 32) (h0 : 0 ≤ w.toInt) (h1 : w.toInt < 50000) : Fin 50000 := ⟨w.toInt.toNat, by omega⟩

/-- A vector laid out as a one-column array reads, at any position, the vector at that row. -/
theorem bcastCol_apply {α : Type} (x : Cert.KernelIdeal.S1300000.Idx → α) (j : Cert.KernelIdeal.S1300000x1.Idx) :
    broadcastInDim Cert.KernelIdeal.S1300000x1 ![0] bcast_S1300000_S1300000x1_0 x j = x (ix1 (j 0)) := by
  unfold broadcastInDim
  congr 1
  funext a
  match a with
  | ⟨0, _⟩ => rfl

/-- The column of start indices, read at any of its positions, is the wrapped index word of that row. -/
theorem startCol_apply (v : IVec Cert.KernelIdeal.S1300000 32) (j : Cert.KernelIdeal.S1300000x1.Idx) :
    startCol v j = wrapIdx v (ix1 (j 0)) := bcastCol_apply (wrapIdx v) j

/-- The row gather's dimension numbers (operand [50000, 64], start indices [1300000, 1], result [1300000, 64]; axis 0 of
    the operand collapsed and start-indexed, axis 1 the one offset axis, slices of one row), over any proof of their
    side conditions: both programs' records are this one. -/
abbrev rowDims (wf : GatherDims.WF Cert.KernelIdeal.S50000x64 Cert.KernelIdeal.S1300000x1 Cert.KernelIdeal.S1300000x64 [1] [0] [] [0] [] 1 ![1, 64]) :
    GatherDims Cert.KernelIdeal.S50000x64 Cert.KernelIdeal.S1300000x1 Cert.KernelIdeal.S1300000x64 where
  offsetDims := [1]
  collapsedSliceDims := [0]
  operandBatchingDims := []
  startIndicesBatchingDims := []
  startIndexMap := [0]
  indexVectorDim := 1
  sliceSizes := ![1, 64]
  wf := wf

/-- The row gather read at (r, c): the table at row "start index of r, read signed and clamped into [0, 49999]",
    column c. -/
theorem rowGather_apply {α : Type}
    (wf : GatherDims.WF Cert.KernelIdeal.S50000x64 Cert.KernelIdeal.S1300000x1 Cert.KernelIdeal.S1300000x64 [1] [0] [] [0] [] 1 ![1, 64])
    (x : Cert.KernelIdeal.S50000x64.Idx → α) (idx : IVec Cert.KernelIdeal.S1300000x1 32) (j : Cert.KernelIdeal.S1300000x64.Idx) :
    Host.gather (rowDims wf) x idx j
      = x (ix2 (⟨min (idx (ix2 (j 0) (0 : Fin 1))).toInt.toNat 49999, by omega⟩ : Fin 50000) (j 1)) := by
  unfold Host.gather
  congr 1
  funext a
  refine Fin.ext ?_
  match a with
  | ⟨0, _⟩ =>
    -- the collapsed axis: the clamped start, no batching and no offset coordinate
    show (rowDims wf).start j idx 0 + (rowDims wf).batchCoord j 0 + (rowDims wf).offCoord j 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims wf).startIndexMap from List.mem_singleton.mpr rfl)]
    have hsi : (rowDims wf).siIdx j ⟨List.idxOf (0 : Fin 2) (rowDims wf).startIndexMap,
        List.idxOf_lt_length_iff.2 (List.mem_singleton.mpr rfl)⟩ = ix2 (j 0) (0 : Fin 1) := by
      funext b; refine Fin.ext ?_
      match b with
      | ⟨0, _⟩ => rfl
      | ⟨1, _⟩ => rfl
    rw [hsi]
    rfl
  | ⟨1, _⟩ =>
    -- the offset axis: no start (the start index map does not name it), the result's column
    show (rowDims wf).start j idx 1 + (rowDims wf).batchCoord j 1 + (rowDims wf).offCoord j 1 = (j 1).val
    rw [GatherDims.batchCoord_eq_zero _ _ _ List.not_mem_nil]
    have hs : (rowDims wf).start j idx 1 = 0 := by
      unfold GatherDims.start
      exact dif_neg (show (1 : Fin 2) ∉ [(0 : Fin 2)] by decide)
    have ho : (rowDims wf).offCoord j 1 = (j 1).val := rfl
    rw [hs, ho]
    omega

/-- Compared signed, a word in [0, 50000) passes both range tests, and the conjunction with the initial bit 1 is 1. -/
theorem inRange_bits (w : BitVec 32) (h0 : 0 ≤ w.toInt) (h1 : w.toInt < 50000) :
    IntOp.andi (IntOp.andi (IntOp.cmpi .sge w 0#32) (IntOp.cmpi .sle w 49999#32)) 1#1 = 1#1 := by
  have hz : (0#32 : BitVec 32).toInt = 0 := by decide
  have ht : (49999#32 : BitVec 32).toInt = 49999 := by decide
  have ha : (0#32 : BitVec 32).sle w = true := by
    simp only [BitVec.sle, hz, decide_eq_true_eq]; exact h0
  have hb : w.sle 49999#32 = true := by
    simp only [BitVec.sle, ht, decide_eq_true_eq]; omega
  simp only [IntOp.cmpi, ha, hb]
  rfl

/-- A fold over an axis of extent one is the operation applied once, to the one element and the initial value. -/
theorem fold_univ_of_one {β : Type} (op : β → β → β) [Std.Commutative op] [Std.Associative op] (b : β) {n : Nat} (hn : n = 1)
    (f : Fin n → β) : (Finset.univ : Finset (Fin n)).fold op b f = op (f ⟨0, by omega⟩) b := by
  subst hn
  rw [Finset.univ_unique, Finset.fold_singleton]
  rfl

/-- A vector laid along the rows of a [1300000, 64] array reads, at (r, c), the vector at r. -/
theorem bcastRows_apply {α : Type} (x : Cert.KernelIdeal.S1300000.Idx → α) (j : Cert.KernelIdeal.S1300000x64.Idx) :
    broadcastInDim Cert.KernelIdeal.S1300000x64 ![0] bcast_S1300000_S1300000x64_0 x j = x (ix1 (j 0)) := by
  unfold broadcastInDim
  congr 1
  funext a
  match a with
  | ⟨0, _⟩ => rfl

/-- The fill mask of the kernel's row gather at a row whose index word is in range: the reduction over the size-one
    second axis of the column of range tests sees the one test of that row, which passes. -/
theorem mask_apply (v : IVec Cert.KernelIdeal.S1300000 32) (p : Cert.KernelIdeal.S1300000.Idx)
    (h0 : 0 ≤ (v p).toInt) (h1 : (v p).toInt < 50000) :
    Host.reduce IntOp.andi
        (andi (cmpi .sge (startCol v) (broadcastInDim Cert.KernelIdeal.S1300000x1 ![] bcast_S_S1300000x1 (constantI Cert.KernelIdeal.S_ 32 0#32)))
          (cmpi .sle (startCol v) (broadcastInDim Cert.KernelIdeal.S1300000x1 ![0, 1] bcast_S1x1_S1300000x1_0_1
            (broadcastInDim Cert.KernelIdeal.S1x1 ![1] bcast_S1_S1x1_1 (constantI Cert.KernelIdeal.S1 32 49999#32)))))
        (constantI Cert.KernelIdeal.S_ 1 1#1) reducesTo_S1300000x1_S1300000_d1 h_S_ p = 1#1 := by
  have hR : Cert.KernelIdeal.S1300000x1.Reduces [1] Cert.KernelIdeal.S1300000 := by decide
  rw [Host.reduce_eq_fold_single IntOp.andi _ _ reducesTo_S1300000x1_S1300000_d1 hR h_S_ p]
  -- the reduced axis has one coordinate
  rw [fold_univ_of_one IntOp.andi _ (rfl : Cert.KernelIdeal.S1300000x1.size 1 = 1)]
  -- the one start index over row p is p's wrapped word, which is p's word
  have hw : startCol v (hR.lift p ⟨0, by decide⟩) = v p :=
    (startCol_apply v _).trans ((congrArg (wrapIdx v) (eq_ix1 p).symm).trans (wrapIdx_of_nonneg v p h0))
  show IntOp.andi (IntOp.andi (IntOp.cmpi .sge (startCol v (hR.lift p ⟨0, by decide⟩)) 0#32)
    (IntOp.cmpi .sle (startCol v (hR.lift p ⟨0, by decide⟩)) 49999#32)) 1#1 = 1#1
  rw [hw]
  exact inRange_bits _ h0 h1

/-- The kernel's row gather at an update row `j` whose index word is in range: the table's row, no fill. -/
theorem takeRows_apply (tbl : FVec Ideal Cert.KernelIdeal.S50000x64 .f32) (v : IVec Cert.KernelIdeal.S1300000 32) (j : Cert.KernelIdeal.S1300000x64.Idx)
    (h0 : 0 ≤ (v (ix1 (j 0))).toInt) (h1 : (v (ix1 (j 0))).toInt < 50000) :
    takeRows tbl v j = tbl (ix2 (rowOf (v (ix1 (j 0))) h0 h1) (j 1)) := by
  unfold takeRows
  -- the mask is set, so the select reads the gathered row
  rw [select_apply, bcastRows_apply, mask_apply v _ h0 h1, select_one]
  -- the start index over row `j 0` is the index word itself, which the clamp leaves alone
  have hw : startCol v (ix2 (j 0) (0 : Fin 1)) = v (ix1 (j 0)) := (startCol_apply v _).trans (wrapIdx_of_nonneg v _ h0)
  refine (rowGather_apply Cert.KernelIdeal.gather_S50000x64_S1300000x1_S1300000x64_1_0_n_n_0_1_164.wf tbl (startCol v) j).trans ?_
  congr 1
  funext a
  match a with
  | ⟨0, _⟩ =>
    apply Fin.ext
    show min (startCol v (ix2 (j 0) (0 : Fin 1))).toInt.toNat 49999 = (v (ix1 (j 0))).toInt.toNat
    rw [hw]
    omega
  | ⟨1, _⟩ => rfl

/-- The reference's row gather (its own record of the same dimension numbers) at an in-range index word. -/
theorem gatherRows_apply (tbl : FVec Ideal Cert.ReferenceIdeal.S50000x64 .f32) (v : IVec Cert.KernelIdeal.S1300000 32) (j : Cert.ReferenceIdeal.S1300000x64.Idx)
    (h0 : 0 ≤ (v (ix1 (j 0))).toInt) (h1 : (v (ix1 (j 0))).toInt < 50000) :
    Host.gather Cert.ReferenceIdeal.gather_S50000x64_S1300000x1_S1300000x64_1_0_n_n_0_1_164 tbl (startCol v) j
      = tbl (ix2 (rowOf (v (ix1 (j 0))) h0 h1) (j 1)) := by
  have hw : startCol v (ix2 (j 0) (0 : Fin 1)) = v (ix1 (j 0)) := (startCol_apply v _).trans (wrapIdx_of_nonneg v _ h0)
  refine (rowGather_apply Cert.ReferenceIdeal.gather_S50000x64_S1300000x1_S1300000x64_1_0_n_n_0_1_164.wf tbl (startCol v) j).trans ?_
  congr 1
  funext a
  match a with
  | ⟨0, _⟩ =>
    apply Fin.ext
    show min (startCol v (ix2 (j 0) (0 : Fin 1))).toInt.toNat 49999 = (v (ix1 (j 0))).toInt.toNat
    rw [hw]
    omega
  | ⟨1, _⟩ => rfl

/-- The reference's gather of one entry per edge from a per-node vector, at an in-range index word. -/
theorem gatherNode_apply (tbl : FVec Ideal Cert.ReferenceIdeal.S50000 .f32) (v : IVec Cert.KernelIdeal.S1300000 32) (e : Cert.ReferenceIdeal.S1300000.Idx)
    (h0 : 0 ≤ (v e).toInt) (h1 : (v e).toInt < 50000) :
    Host.gather Cert.ReferenceIdeal.gather_S50000_S1300000x1_S1300000_n_0_n_n_0_1_1 tbl (startCol v) e
      = tbl (ix1 (rowOf (v e) h0 h1)) := by
  -- a take reads the table at the start index of row `e 0`, read signed and clamped to [0, 49999]
  have key := StableHlo.Predicate.gather_take Cert.ReferenceIdeal.gather_S50000_S1300000x1_S1300000_n_0_n_n_0_1_1
    rfl rfl rfl rfl tbl (startCol v) (e 0) (by decide)
  -- that start index is the index word itself: the wrap leaves a non-negative word alone
  have hw : startCol v (StableHlo.Predicate.ixP (e 0)) = v e :=
    (startCol_apply v _).trans ((congrArg (wrapIdx v) (eq_ix1 e).symm).trans (wrapIdx_of_nonneg v e h0))
  refine (congrArg (Host.gather _ tbl (startCol v)) (Shape.Idx.eq_ofFin e)).trans (key.trans ?_)
  congr 1
  funext a
  match a with
  | ⟨0, _⟩ =>
    apply Fin.ext
    show min (startCol v (StableHlo.Predicate.ixP (e 0))).toInt.toNat (50000 - 1) = (v e).toInt.toNat
    rw [hw]
    omega

/-- The row-scatter's start indices are read at (update row, 0): the scatter-indices index of update `j` for the
    start index's one component. -/
theorem scatter_siIdx (j : Cert.KernelIdeal.S1300000x64.Idx)
    (c : Fin Cert.KernelIdeal.scatter_S50000x64_S1300000x1_S1300000x64_1_0_0_1.scatterDimsToOperandDims.length) :
    Cert.KernelIdeal.scatter_S50000x64_S1300000x1_S1300000x64_1_0_0_1.siIdx j c = (ix2 (j 0) (0 : Fin 1) : Cert.KernelIdeal.S1300000x1.Idx) := by
  funext b
  refine Fin.ext ?_
  match b with
  | ⟨0, _⟩ => rfl
  | ⟨1, _⟩ =>
    have hc : c.val < 1 := c.isLt
    show c.val = 0
    omega

/-- Where a row-scatter's update lands: update `(e, c)` lands on `(u, c')` only if the index word of `e` is `u`
    (read signed, unwrapped, unclamped) and `c = c'`. -/
theorem lands_row (d : IVec Cert.KernelIdeal.S1300000 32) (j : Cert.KernelIdeal.S1300000x64.Idx) (i : Cert.KernelIdeal.S50000x64.Idx)
    (h : Cert.KernelIdeal.scatter_S50000x64_S1300000x1_S1300000x64_1_0_0_1.resultIdx? j
          (broadcastInDim Cert.KernelIdeal.S1300000x1 ![0] bcast_S1300000_S1300000x1_0 d) = some i) :
    (d (ix1 (j 0))).toInt = ((i 0).val : Int) ∧ j 1 = i 1 := by
  unfold ScatterDims.resultIdx? at h
  split at h
  · next hc =>
    have hi := Option.some.inj h
    -- axis 0 is the scattered axis: its start is the index word read signed, its window coordinate is 0 (the axis is inserted)
    have s0 : Cert.KernelIdeal.scatter_S50000x64_S1300000x1_S1300000x64_1_0_0_1.start j
        (broadcastInDim Cert.KernelIdeal.S1300000x1 ![0] bcast_S1300000_S1300000x1_0 d) 0 = (d (ix1 (j 0))).toInt := by
      unfold ScatterDims.start
      rw [dif_pos (show (0 : Fin 2) ∈ Cert.KernelIdeal.scatter_S50000x64_S1300000x1_S1300000x64_1_0_0_1.scatterDimsToOperandDims
        from List.mem_singleton.mpr rfl), scatter_siIdx]
      exact congrArg BitVec.toInt (bcastCol_apply d _)
    have w0 : Cert.KernelIdeal.scatter_S50000x64_S1300000x1_S1300000x64_1_0_0_1.window j 0 = 0 := rfl
    -- axis 1 is the window axis: no start, and the window coordinate is the update's column
    have s1 : Cert.KernelIdeal.scatter_S50000x64_S1300000x1_S1300000x64_1_0_0_1.start j
        (broadcastInDim Cert.KernelIdeal.S1300000x1 ![0] bcast_S1300000_S1300000x1_0 d) 1 = 0 := rfl
    have w1 : Cert.KernelIdeal.scatter_S50000x64_S1300000x1_S1300000x64_1_0_0_1.window j 1 = (j 1).val := rfl
    have c0 := hc 0
    have c1 := hc 1
    have e0 := congrArg (fun f : Cert.KernelIdeal.S50000x64.Idx => (f 0).val) hi
    have e1 := congrArg (fun f : Cert.KernelIdeal.S50000x64.Idx => (f 1).val) hi
    simp only [s0, w0] at c0 e0
    simp only [s1, w1] at c1 e1
    refine ⟨by omega, Fin.ext ?_⟩
    omega
  · exact absurd h (by simp)

end Cert.Gcn

end
-- ==== Proof.HostValues.lean ====
/-
  The kernel program's result as one function of its five arguments.

  Between the launch and the first region the host builds, from the edge list `ei` (two rows of 1250000 words) and
  the edge weights `ea`: the source and destination vectors with the 50000 self loops appended, the weights with
  a one per self loop, the weighted in-degree (a scatter-add of the weights at the destinations) and the node factor
  `1/√deg` (zero where the degree is not positive), reshaped to a column. The first region writes the row-scaled product.
  Between the regions the host gathers its rows at the sources, scales each by its edge weight and scatter-adds them at
  the destinations; the second region finalises. Reading the buffer contents boundary by boundary gives the result.
-/
import proofs.«409217_j82686710383106_3_alg».proof.Proof.Regions
import proofs.«409217_j82686710383106_3_alg».proof.Proof.Indexing

set_option maxRecDepth 16384

noncomputable section

namespace Cert.Gcn

open Idealize.ShloMosaic Idealize.ShloMosaic.ValueIdx
open Cert.KernelIdeal
open Cert.KernelIdeal.Facts₀

/-! ## The host's values, as the kernel program spells them -/

/-- Row 0 of the edge list (the sources) followed by the self loops `0, 1, …, 49999`. -/
def kSrc (ei : IVec S2x1250000 32) : IVec S1300000 32 :=
  concatenate S1300000 0 [⟨S1250000, shapeCast S1250000 (extractStridedSlice S1x1250000 ![0, 0] ei slices_S2x1250000_S1x1250000_0_0) shapeCasts_S1x1250000_S1250000⟩, ⟨S50000, iotaInDim S50000 32 0⟩] concatenates_S1250000_S50000_S1300000_d0

/-- Row 1 of the edge list (the destinations), followed by the same self loops. -/
def kDst (ei : IVec S2x1250000 32) : IVec S1300000 32 :=
  concatenate S1300000 0 [⟨S1250000, shapeCast S1250000 (extractStridedSlice S1x1250000 ![1, 0] ei slices_S2x1250000_S1x1250000_1_0) shapeCasts_S1x1250000_S1250000⟩, ⟨S50000, iotaInDim S50000 32 0⟩] concatenates_S1250000_S50000_S1300000_d0

/-- The edge weights followed by a one per self loop. -/
def kEw (ea : FVec Ideal S1250000 .f32) : FVec Ideal S1300000 .f32 :=
  concatenate S1300000 0 [⟨S1250000, ea⟩, ⟨S50000, broadcastInDim S50000 ![] bcast_S_S50000 (constant (F := Ideal) S_ .f32 0x3F800000#32)⟩] concatenates_S1250000_S50000_S1300000_d0

/-- The weighted in-degree: the weights scatter-added at the destinations. -/
def kDeg (ei : IVec S2x1250000 32) (ea : FVec Ideal S1250000 .f32) : FVec Ideal S50000 .f32 :=
  Host.scatterAdd scatter_S50000_S1300000x1_S1300000_n_0_0_1 (broadcastInDim S50000 ![] bcast_S_S50000 (constant (F := Ideal) S_ .f32 0x00000000#32))
    (broadcastInDim S1300000x1 ![0] bcast_S1300000_S1300000x1_0 (kDst ei)) (kEw ea)

/-- The node factor: `1/√deg` where the degree is positive, else zero. -/
def kDinv (ei : IVec S2x1250000 32) (ea : FVec Ideal S1250000 .f32) : FVec Ideal S50000 .f32 :=
  select (cmpf .ogt (kDeg ei ea) (broadcastInDim S50000 ![] bcast_S_S50000 (constant (F := Ideal) S_ .f32 0x00000000#32)))
    (Host.rsqrt (kDeg ei ea)) (broadcastInDim S50000 ![] bcast_S_S50000 (constant (F := Ideal) S_ .f32 0x00000000#32))

/-- The node factor as the column both regions read. -/
def kCol (ei : IVec S2x1250000 32) (ea : FVec Ideal S1250000 .f32) : FVec Ideal S50000x1 .f32 :=
  shapeCast S50000x1 (kDinv ei ea) shapeCasts_S50000_S50000x1

/-- The accumulated messages: gathered rows of the scaled product, times the edge weight, summed per destination. -/
def kAcc (x : FVec Ideal S50000x64 .f32) (ei : IVec S2x1250000 32) (ea : FVec Ideal S1250000 .f32) (W : FVec Ideal S64x64 .f32) :
    FVec Ideal S50000x64 .f32 :=
  Host.scatterAdd scatter_S50000x64_S1300000x1_S1300000x64_1_0_0_1
    (broadcastInDim S50000x64 ![] bcast_S_S50000x64 (constant (F := Ideal) S_ .f32 0x00000000#32))
    (broadcastInDim S1300000x1 ![0] bcast_S1300000_S1300000x1_0 (kDst ei))
    (mulf (takeRows (scaledProj x W (kCol ei ea)) (kSrc ei))
      (broadcastInDim S1300000x64 ![0, 1] bcast_S1300000x1_S1300000x64_0_1
        (broadcastInDim S1300000x1 ![0] bcast_S1300000_S1300000x1_0 (kEw ea))))

/-- The kernel program's result. -/
def kernelValue (x : FVec Ideal S50000x64 .f32) (ei : IVec S2x1250000 32) (ea : FVec Ideal S1250000 .f32)
    (W : FVec Ideal S64x64 .f32) (b : FVec Ideal S64 .f32) : FVec Ideal S50000x64 .f32 :=
  finalize (kAcc x ei ea W) (kCol ei ea) (shapeCast S1x64 b shapeCasts_S64_S1x64)

end Cert.Gcn

end
-- ==== Proof.Blocks.lean ====
/-
  From row blocks to whole arrays. Each region runs over ten grid points; point t stages rows 5000·t … 5000·t + 4999 of
  its row-blocked operands (and the whole of the operand every point shares) and writes back the same rows of its result.
  Read through its block, what a point writes is the restriction of ONE function of the whole arrays, and the ten blocks
  tile the 50000 rows, so the array after the last point is that function.
-/
import proofs.«409217_j82686710383106_3_alg».proof.Proof.Regions
import proofs.«409217_j82686710383106_3_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.Gcn.Blocks

open Idealize.ShloMosaic Idealize.ShloMosaic.TcCoe Idealize.ShloMosaic.ValueIdx Idealize.SL.Sem
open Idealize.ShloMosaic.Pipeline (Dat)
open Cert.KernelIdeal Cert.KernelIdeal.Gen

theorem zero_offsets : (![0, 0] : Fin 2 → Nat) = fun _ => 0 := funext fun a => by fin_cases a <;> rfl

/-! ## The first region: a row block of the product, scaled row by row -/

/-- The block indices of the first region's four windows at point `t`: the row-blocked ones sit at row block `t`, the
    weight matrix at its one block. -/
theorem scaledProj_index_maps : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- The left operand of the block product is read at the result's row … -/
theorem product_left_row (i : S5000x64.Idx) (q : dot_S5000x64_S64x64_S5000x64_1_0_0_1_n_n.contr.Idx) :
    (dot_S5000x64_S64x64_S5000x64_1_0_0_1_n_n.lhsIdx i q 0).val = (i 0).val := by
  unfold DotDims.lhsIdx
  rw [dif_neg (show ¬(0 : Fin S5000x64.rank) ∈ dot_S5000x64_S64x64_S5000x64_1_0_0_1_n_n.lhsBatch by decide), dif_pos (show (0 : Fin S5000x64.rank) ∈ dot_S5000x64_S64x64_S5000x64_1_0_0_1_n_n.lhsNonContracting by decide)]
  rfl
/-- … and at the contracted position; -/
theorem product_left_contracted (i : S5000x64.Idx) (q : dot_S5000x64_S64x64_S5000x64_1_0_0_1_n_n.contr.Idx) :
    (dot_S5000x64_S64x64_S5000x64_1_0_0_1_n_n.lhsIdx i q 1).val = (q ⟨0, by decide⟩).val :=
  dot_S5000x64_S64x64_S5000x64_1_0_0_1_n_n.lhsIdx_val_of_single rfl i q
/-- the right operand at the contracted position … -/
theorem product_right_contracted (i : S5000x64.Idx) (q : dot_S5000x64_S64x64_S5000x64_1_0_0_1_n_n.contr.Idx) :
    (dot_S5000x64_S64x64_S5000x64_1_0_0_1_n_n.rhsIdx i q 0).val = (q ⟨0, by decide⟩).val :=
  dot_S5000x64_S64x64_S5000x64_1_0_0_1_n_n.rhsIdx_val_of_single rfl i q
/-- … and at the result's column. -/
theorem product_right_col (i : S5000x64.Idx) (q : dot_S5000x64_S64x64_S5000x64_1_0_0_1_n_n.contr.Idx) :
    (dot_S5000x64_S64x64_S5000x64_1_0_0_1_n_n.rhsIdx i q 1).val = (i 1).val := by
  unfold DotDims.rhsIdx
  rw [dif_neg (show ¬(1 : Fin S64x64.rank) ∈ dot_S5000x64_S64x64_S5000x64_1_0_0_1_n_n.rhsBatch by decide), dif_pos (show (1 : Fin S64x64.rank) ∈ dot_S5000x64_S64x64_S5000x64_1_0_0_1_n_n.rhsNonContracting by decide)]
  rfl

/-- A 5000 × 64 block times the 64 × 64 matrix into a zero accumulator, at row `p` and column `q`: the sum over the
    64 contracted positions. -/
theorem block_product_apply (a : FVec Ideal S5000x64 .bf16) (b : FVec Ideal S64x64 .bf16) (p : Fin 5000) (q : Fin 64) :
    matmul (F := Ideal) dot_S5000x64_S64x64_S5000x64_1_0_0_1_n_n none a b (constant (F := Ideal) S5000x64 .f32 0x00000000#32) (ix2 p q)
      = ∑ k : Fin 64, a (ix2 p k) * b (ix2 k q) := by
  refine (Ideal.matmul_constant_zero_apply dot_S5000x64_S64x64_S5000x64_1_0_0_1_n_n none a b (ix2 p q)).trans ?_
  rw [← Equiv.sum_comp (contrEquiv1 dot_S5000x64_S64x64_S5000x64_1_0_0_1_n_n 64 rfl rfl).symm]
  refine Finset.sum_congr rfl fun k _ => ?_
  have hk := contrEquiv1_symm_val dot_S5000x64_S64x64_S5000x64_1_0_0_1_n_n 64 rfl rfl k
  have el : dot_S5000x64_S64x64_S5000x64_1_0_0_1_n_n.lhsIdx (ix2 p q) ((contrEquiv1 dot_S5000x64_S64x64_S5000x64_1_0_0_1_n_n 64 rfl rfl).symm k) = ix2 p k := funext fun a => Fin.ext (by
    match a with
    | ⟨0, _⟩ => exact product_left_row _ _
    | ⟨1, _⟩ => exact (product_left_contracted _ _).trans hk)
  have er : dot_S5000x64_S64x64_S5000x64_1_0_0_1_n_n.rhsIdx (ix2 p q) ((contrEquiv1 dot_S5000x64_S64x64_S5000x64_1_0_0_1_n_n 64 rfl rfl).symm k) = ix2 k q := funext fun a => Fin.ext (by
    match a with
    | ⟨0, _⟩ => exact (product_right_contracted _ _).trans hk
    | ⟨1, _⟩ => exact product_right_col _ _)
  rw [el, er]

/-- The first region's payload at row `p`, column `q` of its block: the row of the block times the column of the
    matrix, scaled by the row's node factor (the narrowing of the operands is the identity on ideal values). -/
theorem scaledProj_payload (x0 : Vec Ideal S5000x64 .f32) (x1 : Vec Ideal S64x64 .f32) (x2 : Vec Ideal S5000x1 .f32)
    (p : Fin 5000) (q : Fin 64) :
    k0_pay1 (F := Ideal) x0 x1 x2 (ix2 p q) = (∑ k : Fin 64, x0 (ix2 p k) * x1 (ix2 k q)) * x2 (ix2 p 0) := by
  unfold k0_pay1
  simp only [mulf_apply, shapeCast_self]
  rw [broadcastTo_apply x2 broadcasts_S5000x1_S5000x64 (ix2 p q) (ix2 p 0) (fun a => by
        match a with
        | ⟨0, _⟩ => rfl
        | ⟨1, _⟩ => rfl),
      block_product_apply]
  rfl

/-- Rows `5000·n … 5000·n + 4999` of the scaled product, from blocks that are those rows of the features and of the
    node-factor column, and the whole weight matrix. -/
theorem scaledProj_rows (X : S50000x64.Idx → EReal) (W : S64x64.Idx → EReal) (D : S50000x1.Idx → EReal)
    (x0 : Vec Ideal S5000x64 .f32) (x1 : Vec Ideal S64x64 .f32) (x2 : Vec Ideal S5000x1 .f32) (n : Nat)
    (h0 : ∀ (y : S5000x64.Idx) (k : S50000x64.Idx), (k 0).val = 5000 * n + (y 0).val → (k 1).val = (y 1).val → x0 y = X k)
    (h1 : ∀ (y : S64x64.Idx) (k : S64x64.Idx), (k 0).val = (y 0).val → (k 1).val = (y 1).val → x1 y = W k)
    (h2 : ∀ (y : S5000x1.Idx) (k : S50000x1.Idx), (k 0).val = 5000 * n + (y 0).val → (k 1).val = (y 1).val → x2 y = D k)
    (p : Fin 5000) (q : Fin 64) (i : S50000x64.Idx) (hi0 : (i 0).val = 5000 * n + p.val) (hi1 : (i 1).val = q.val) :
    k0_pay1 (F := Ideal) x0 x1 x2 (ix2 p q) = Cert.Gcn.scaledProj X W D i := by
  rw [scaledProj_payload]
  unfold Cert.Gcn.scaledProj
  rw [Cert.ReferenceIdeal.Read.val_main_v33_apply, h2 (ix2 p 0) (ix2 (i 0) 0) hi0 rfl]
  congr 1
  refine Finset.sum_congr rfl fun k _ => ?_
  rw [h0 (ix2 p k) (Cert.ReferenceIdeal.Read.lidx_main_v33 i k) hi0 rfl,
    h1 (ix2 k q) (Cert.ReferenceIdeal.Read.ridx_main_v33 i k) rfl hi1]

/-! ## The second region: scale, add the bias, clip at zero -/

/-- The block indices of the second region's four windows at point `t`: the row-blocked ones sit at row block `t`, the
    bias row at its one block. -/
theorem finalize_index_maps : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- The second region's payload at row `p`, column `q` of its block: the accumulated entry times the row's node
    factor, plus the column's bias, clipped below at the zero word (kept as a word on both sides). -/
theorem finalize_payload (x0 : Vec Ideal S5000x64 .f32) (x1 : Vec Ideal S5000x1 .f32) (x2 : Vec Ideal S1x64 .f32)
    (p : Fin 5000) (q : Fin 64) :
    k1_pay1 (F := Ideal) x0 x1 x2 (ix2 p q)
      = max (x0 (ix2 p q) * x1 (ix2 p 0) + x2 (ix2 0 q)) (Ideal.ofBits .f32 0x00000000#32) := by
  unfold k1_pay1
  simp only [maximumf_apply, addf_apply, mulf_apply, broadcast_apply, shapeCast_self]
  rw [broadcastTo_apply x1 broadcasts_S5000x1_S5000x64 (ix2 p q) (ix2 p 0) (fun a => by
        match a with
        | ⟨0, _⟩ => rfl
        | ⟨1, _⟩ => rfl),
      broadcastTo_apply x2 broadcasts_S1x64_S5000x64 (ix2 p q) (ix2 0 q) (fun a => by
        match a with
        | ⟨0, _⟩ => rfl
        | ⟨1, _⟩ => rfl)]
  rfl

/-- Rows `5000·n … 5000·n + 4999` of the finalisation, from blocks that are those rows of the accumulated messages and
    of the node-factor column, and the whole bias row. -/
theorem finalize_rows (A : S50000x64.Idx → EReal) (D : S50000x1.Idx → EReal) (B : S1x64.Idx → EReal)
    (x0 : Vec Ideal S5000x64 .f32) (x1 : Vec Ideal S5000x1 .f32) (x2 : Vec Ideal S1x64 .f32) (n : Nat)
    (h0 : ∀ (y : S5000x64.Idx) (k : S50000x64.Idx), (k 0).val = 5000 * n + (y 0).val → (k 1).val = (y 1).val → x0 y = A k)
    (h1 : ∀ (y : S5000x1.Idx) (k : S50000x1.Idx), (k 0).val = 5000 * n + (y 0).val → (k 1).val = (y 1).val → x1 y = D k)
    (h2 : ∀ (y : S1x64.Idx) (k : S1x64.Idx), (k 0).val = (y 0).val → (k 1).val = (y 1).val → x2 y = B k)
    (p : Fin 5000) (q : Fin 64) (i : S50000x64.Idx) (hi0 : (i 0).val = 5000 * n + p.val) (hi1 : (i 1).val = q.val) :
    k1_pay1 (F := Ideal) x0 x1 x2 (ix2 p q) = Cert.Gcn.finalize A D B i := by
  rw [finalize_payload]
  unfold Cert.Gcn.finalize
  rw [h0 (ix2 p q) i hi0 hi1, h1 (ix2 p 0) (ix2 (i 0) 0) hi0 rfl, h2 (ix2 0 q) (ix2 0 (i 1)) rfl hi1]

variable (V : (c : Dev nD) → (b : Ref sig .tc) → Buf (Elt Ideal) ((c : Thread nD τ).loc b))

/-! ## The first region's blocks, and its result array -/

/-- At point `t` the first window's block is rows `5000·t …` of the features. -/
theorem feature_block_apply (c : Dev nD) (t : Fin cfg0.N) (y : S5000x64.Idx) (k : S50000x64.Idx)
    (hk0 : (k 0).val = 5000 * t.val + (y 0).val) (hk1 : (k 1).val = (y 1).val) :
    (iblk0 V c 0 t : Vec Ideal S5000x64 .f32) y = (V c main_arg0 : S50000x64.Idx → EReal) k := by
  obtain ⟨e0, e1, -⟩ := scaledProj_index_maps t
  unfold iblk0
  rw [View.read_apply]
  show V c main_arg0 _ = V c main_arg0 _
  congr 1
  funext a
  apply Fin.ext
  match a with
  | ⟨0, _⟩ => show win0_0.index t 0 * 5000 + 1 * (y 0).val = (k 0).val; rw [e0, hk0]; omega
  | ⟨1, _⟩ => show win0_0.index t 1 * 64 + 1 * (y 1).val = (k 1).val; rw [e1, hk1]; omega

/-- At every point the second window's block is the whole weight matrix. -/
theorem weight_block_apply (c : Dev nD) (t : Fin cfg0.N) (y : S64x64.Idx) (k : S64x64.Idx)
    (hk0 : (k 0).val = (y 0).val) (hk1 : (k 1).val = (y 1).val) :
    (iblk0 V c 1 t : Vec Ideal S64x64 .f32) y = (V c main_arg3 : S64x64.Idx → EReal) k := by
  obtain ⟨-, -, e0, e1, -⟩ := scaledProj_index_maps t
  unfold iblk0
  rw [View.read_apply]
  show V c main_arg3 _ = V c main_arg3 _
  congr 1
  funext a
  apply Fin.ext
  match a with
  | ⟨0, _⟩ => show win0_1.index t 0 * 64 + 1 * (y 0).val = (k 0).val; rw [e0, hk0]; omega
  | ⟨1, _⟩ => show win0_1.index t 1 * 64 + 1 * (y 1).val = (k 1).val; rw [e1, hk1]; omega

/-- At point `t` the third window's block is rows `5000·t …` of the node-factor column. -/
theorem factor_block_apply₀ (c : Dev nD) (t : Fin cfg0.N) (y : S5000x1.Idx) (k : S50000x1.Idx)
    (hk0 : (k 0).val = 5000 * t.val + (y 0).val) (hk1 : (k 1).val = (y 1).val) :
    (iblk0 V c 2 t : Vec Ideal S5000x1 .f32) y = (V c main_v17 : S50000x1.Idx → EReal) k := by
  obtain ⟨-, -, -, -, e0, e1, -⟩ := scaledProj_index_maps t
  unfold iblk0
  rw [View.read_apply]
  show V c main_v17 _ = V c main_v17 _
  congr 1
  funext a
  apply Fin.ext
  match a with
  | ⟨0, _⟩ => show win0_2.index t 0 * 5000 + 1 * (y 0).val = (k 0).val; rw [e0, hk0]; omega
  | ⟨1, _⟩ => show win0_2.index t 1 * 1 + 1 * (y 1).val = (k 1).val; rw [e1, hk1]; omega

/-- What point `t` writes back is its row block of the scaled product of the arrays the region entered with. -/
theorem scaledProj_flushed (c : Dev nD) (t : Fin cfg0.N) :
    (dat0 (F := Ideal) V c).flushed 3 t
      = ((cfg0.win 3).blk t).view.read (Elt Ideal)
          (Cert.Gcn.scaledProj (V c main_arg0 : S50000x64.Idx → EReal) (V c main_arg3 : S64x64.Idx → EReal) (V c main_v17 : S50000x1.Idx → EReal)) := by
  show (cfg0.win 3).cut (grid0.coords t) ((dat0 V c).after 3 t) = _
  rw [after0_3]
  unfold out0_3
  rw [View.canon_unit_zero zero_offsets]
  simp only [View.ld_unit_zero (S := S5000x64) zero_offsets, View.ld_unit_zero (S := S64x64) zero_offsets, View.ld_unit_zero (S := S5000x1) zero_offsets]
  obtain ⟨-, -, -, -, -, -, e0, e1⟩ := scaledProj_index_maps t
  funext j
  obtain ⟨p, q, rfl⟩ : ∃ (p : Fin 5000) (q : Fin 64), j = ix2 p q := ⟨j 0, j 1, eq_ix2 j⟩
  show k0_pay1 (iblk0 V c 0 t) (iblk0 V c 1 t) (iblk0 V c 2 t) (ix2 p q)
    = Cert.Gcn.scaledProj (V c main_arg0 : S50000x64.Idx → EReal) (V c main_arg3 : S64x64.Idx → EReal) (V c main_v17 : S50000x1.Idx → EReal)
        (((cfg0.win 3).blk t).view.emb (ix2 p q))
  refine scaledProj_rows _ _ _ _ _ _ t.val (feature_block_apply V c t) (weight_block_apply V c t) (factor_block_apply₀ V c t) p q _ ?_ ?_
  · show win0_3.index t 0 * 5000 + 1 * p.val = 5000 * t.val + p.val; rw [e0]; omega
  · show win0_3.index t 1 * 64 + 1 * q.val = q.val; rw [e1]; omega

/-- An index of the result array is in point `t`'s block iff on each axis its coordinate is in the block's range. -/
theorem scaledProj_mem_blk (t : Fin cfg0.N) (i : S50000x64.Idx) :
    i ∈ ((cfg0.win 3).blk t).view.set
      ↔ ∀ a : Fin 2, win0_3.index t a * S5000x64.size a ≤ (i a).val ∧ (i a).val < win0_3.index t a * S5000x64.size a + S5000x64.size a := by
  show i ∈ ((View.whole main_v18).slice (win0_3.rect t)).set ↔ _
  rw [View.set_slice_whole, Rect.mem_set_unit]
  exact Iff.rfl

/-- The ten row blocks tile the 50000 rows: row `r` is in the block of point `r / 5000`. -/
theorem scaledProj_cover (i : S50000x64.Idx) :
    ∃ t : Fin cfg0.N, (cfg0.win 3).flush t = true ∧ i ∈ ((cfg0.win 3).blk t).view.set := by
  have hi0 : (i 0).val < 50000 := (i 0).isLt
  have hi1 : (i 1).val < 64 := (i 1).isLt
  obtain ⟨t, ht⟩ : ∃ t : Fin cfg0.N, t.val = (i 0).val / 5000 :=
    ⟨⟨(i 0).val / 5000, by rw [show cfg0.N = 10 from N_0]; omega⟩, rfl⟩
  obtain ⟨-, -, -, -, -, -, e0, e1⟩ := scaledProj_index_maps t
  refine ⟨t, flush0_3 t, ?_⟩
  rw [scaledProj_mem_blk]
  intro a
  match a with
  | ⟨0, _⟩ =>
    show win0_3.index t (0 : Fin 2) * 5000 ≤ (i 0).val ∧ (i 0).val < win0_3.index t (0 : Fin 2) * 5000 + 5000
    rw [e0, ht]; omega
  | ⟨1, _⟩ =>
    show win0_3.index t (1 : Fin 2) * 64 ≤ (i 1).val ∧ (i 1).val < win0_3.index t (1 : Fin 2) * 64 + 64
    rw [e1]; omega

/-- After the first region's ten points its result array is the row-scaled product of the arrays it entered with. -/
theorem first_region (c : Dev nD) :
    (dat0 (F := Ideal) V c).arrAt 3 cfg0.N
      = Cert.Gcn.scaledProj (V c main_arg0 : S50000x64.Idx → EReal) (V c main_arg3 : S64x64.Idx → EReal) (V c main_v17 : S50000x1.Idx → EReal) :=
  (dat0 (F := Ideal) V c).arrAt_eq_of_cover 3 _ (fun t _ => scaledProj_flushed V c t) scaledProj_cover

/-! ## The second region's blocks, and its result array -/

/-- At point `t` the first window's block is rows `5000·t …` of the accumulated messages. -/
theorem acc_block_apply (c : Dev nD) (t : Fin cfg1.N) (y : S5000x64.Idx) (k : S50000x64.Idx)
    (hk0 : (k 0).val = 5000 * t.val + (y 0).val) (hk1 : (k 1).val = (y 1).val) :
    (iblk1 V c 0 t : Vec Ideal S5000x64 .f32) y = (V c main_v25 : S50000x64.Idx → EReal) k := by
  obtain ⟨e0, e1, -⟩ := finalize_index_maps t
  unfold iblk1
  rw [View.read_apply]
  show V c main_v25 _ = V c main_v25 _
  congr 1
  funext a
  apply Fin.ext
  match a with
  | ⟨0, _⟩ => show win1_0.index t 0 * 5000 + 1 * (y 0).val = (k 0).val; rw [e0, hk0]; omega
  | ⟨1, _⟩ => show win1_0.index t 1 * 64 + 1 * (y 1).val = (k 1).val; rw [e1, hk1]; omega

/-- At point `t` the second window's block is rows `5000·t …` of the node-factor column. -/
theorem factor_block_apply₁ (c : Dev nD) (t : Fin cfg1.N) (y : S5000x1.Idx) (k : S50000x1.Idx)
    (hk0 : (k 0).val = 5000 * t.val + (y 0).val) (hk1 : (k 1).val = (y 1).val) :
    (iblk1 V c 1 t : Vec Ideal S5000x1 .f32) y = (V c main_v17 : S50000x1.Idx → EReal) k := by
  obtain ⟨-, -, e0, e1, -⟩ := finalize_index_maps t
  unfold iblk1
  rw [View.read_apply]
  show V c main_v17 _ = V c main_v17 _
  congr 1
  funext a
  apply Fin.ext
  match a with
  | ⟨0, _⟩ => show win1_1.index t 0 * 5000 + 1 * (y 0).val = (k 0).val; rw [e0, hk0]; omega
  | ⟨1, _⟩ => show win1_1.index t 1 * 1 + 1 * (y 1).val = (k 1).val; rw [e1, hk1]; omega

/-- At every point the third window's block is the whole bias row. -/
theorem bias_block_apply (c : Dev nD) (t : Fin cfg1.N) (y : S1x64.Idx) (k : S1x64.Idx)
    (hk0 : (k 0).val = (y 0).val) (hk1 : (k 1).val = (y 1).val) :
    (iblk1 V c 2 t : Vec Ideal S1x64 .f32) y = (V c main_v26 : S1x64.Idx → EReal) k := by
  obtain ⟨-, -, -, -, e0, e1, -⟩ := finalize_index_maps t
  unfold iblk1
  rw [View.read_apply]
  show V c main_v26 _ = V c main_v26 _
  congr 1
  funext a
  apply Fin.ext
  match a with
  | ⟨0, _⟩ => show win1_2.index t 0 * 1 + 1 * (y 0).val = (k 0).val; rw [e0, hk0]; omega
  | ⟨1, _⟩ => show win1_2.index t 1 * 64 + 1 * (y 1).val = (k 1).val; rw [e1, hk1]; omega

/-- What point `t` writes back is its row block of the finalisation of the arrays the region entered with. -/
theorem finalize_flushed (c : Dev nD) (t : Fin cfg1.N) :
    (dat1 (F := Ideal) V c).flushed 3 t
      = ((cfg1.win 3).blk t).view.read (Elt Ideal)
          (Cert.Gcn.finalize (V c main_v25 : S50000x64.Idx → EReal) (V c main_v17 : S50000x1.Idx → EReal) (V c main_v26 : S1x64.Idx → EReal)) := by
  show (cfg1.win 3).cut (grid1.coords t) ((dat1 V c).after 3 t) = _
  rw [after1_3]
  unfold out1_3
  rw [View.canon_unit_zero zero_offsets]
  simp only [View.ld_unit_zero (S := S5000x64) zero_offsets, View.ld_unit_zero (S := S5000x1) zero_offsets, View.ld_unit_zero (S := S1x64) zero_offsets]
  obtain ⟨-, -, -, -, -, -, e0, e1⟩ := finalize_index_maps t
  funext j
  obtain ⟨p, q, rfl⟩ : ∃ (p : Fin 5000) (q : Fin 64), j = ix2 p q := ⟨j 0, j 1, eq_ix2 j⟩
  show k1_pay1 (iblk1 V c 0 t) (iblk1 V c 1 t) (iblk1 V c 2 t) (ix2 p q)
    = Cert.Gcn.finalize (V c main_v25 : S50000x64.Idx → EReal) (V c main_v17 : S50000x1.Idx → EReal) (V c main_v26 : S1x64.Idx → EReal)
        (((cfg1.win 3).blk t).view.emb (ix2 p q))
  refine finalize_rows _ _ _ _ _ _ t.val (acc_block_apply V c t) (factor_block_apply₁ V c t) (bias_block_apply V c t) p q _ ?_ ?_
  · show win1_3.index t 0 * 5000 + 1 * p.val = 5000 * t.val + p.val; rw [e0]; omega
  · show win1_3.index t 1 * 64 + 1 * q.val = q.val; rw [e1]; omega

/-- An index of the result array is in point `t`'s block iff on each axis its coordinate is in the block's range. -/
theorem finalize_mem_blk (t : Fin cfg1.N) (i : S50000x64.Idx) :
    i ∈ ((cfg1.win 3).blk t).view.set
      ↔ ∀ a : Fin 2, win1_3.index t a * S5000x64.size a ≤ (i a).val ∧ (i a).val < win1_3.index t a * S5000x64.size a + S5000x64.size a := by
  show i ∈ ((View.whole main_v27).slice (win1_3.rect t)).set ↔ _
  rw [View.set_slice_whole, Rect.mem_set_unit]
  exact Iff.rfl

/-- The ten row blocks tile the 50000 rows: row `r` is in the block of point `r / 5000`. -/
theorem finalize_cover (i : S50000x64.Idx) :
    ∃ t : Fin cfg1.N, (cfg1.win 3).flush t = true ∧ i ∈ ((cfg1.win 3).blk t).view.set := by
  have hi0 : (i 0).val < 50000 := (i 0).isLt
  have hi1 : (i 1).val < 64 := (i 1).isLt
  obtain ⟨t, ht⟩ : ∃ t : Fin cfg1.N, t.val = (i 0).val / 5000 :=
    ⟨⟨(i 0).val / 5000, by rw [show cfg1.N = 10 from N_1]; omega⟩, rfl⟩
  obtain ⟨-, -, -, -, -, -, e0, e1⟩ := finalize_index_maps t
  refine ⟨t, flush1_3 t, ?_⟩
  rw [finalize_mem_blk]
  intro a
  match a with
  | ⟨0, _⟩ =>
    show win1_3.index t (0 : Fin 2) * 5000 ≤ (i 0).val ∧ (i 0).val < win1_3.index t (0 : Fin 2) * 5000 + 5000
    rw [e0, ht]; omega
  | ⟨1, _⟩ =>
    show win1_3.index t (1 : Fin 2) * 64 ≤ (i 1).val ∧ (i 1).val < win1_3.index t (1 : Fin 2) * 64 + 64
    rw [e1]; omega

/-- After the second region's ten points its result array is the finalisation of the arrays it entered with. -/
theorem second_region (c : Dev nD) :
    (dat1 (F := Ideal) V c).arrAt 3 cfg1.N
      = Cert.Gcn.finalize (V c main_v25 : S50000x64.Idx → EReal) (V c main_v17 : S50000x1.Idx → EReal) (V c main_v26 : S1x64.Idx → EReal) :=
  (dat1 (F := Ideal) V c).arrAt_eq_of_cover 3 _ (fun t _ => finalize_flushed V c t) finalize_cover

end Cert.Gcn.Blocks

end
-- ==== Proof.TakeStage.lean ====
/-
  The kernel's row gather, read off the host stretch that computes it.

  The stretch is twenty-three operations: the NumPy wrap of the source words (a compare with zero, an addition of 50000,
  a select), their broadcast to a column of start indices, the two range tests of that column against 0 and 49999, their
  conjunction reduced over the size-one second axis, the gather of the table's rows at the column, and the select between
  the gathered rows and the fill word under the broadcast mask. Read in five short pieces, each as a function of the
  buffers it reads, and composed, the stretch computes the masked row gather of the table buffer at the source buffer.
-/
import proofs.«409217_j82686710383106_3_alg».proof.Proof.HostValues
import proofs.«409217_j82686710383106_3_alg».proof.Proof.Gen.KernelIdeal.Launch
import Idealize.ShloMosaic.Lib.StableHlo.Run

set_option maxRecDepth 16384

noncomputable section

namespace Cert.Gcn

open Idealize.ShloMosaic Idealize.ShloMosaic.TcCoe Idealize.ShloMosaic.ValueIdx Idealize.SL.Sem Idealize.ShloMosaic.StableHlo
open Cert.KernelIdeal Cert.KernelIdeal.Gen

/-- Two stretches run one after the other: the second from the contents the first leaves. -/
theorem after_append {τ : Topo} {sig : RefSig} {Val : EltTy → Type} (l₁ l₂ : List (HloOp τ sig Val))
    (V : Valuation τ sig Val) : StableHlo.after (l₁ ++ l₂) V = StableHlo.after l₂ (StableHlo.after l₁ V) := by
  induction l₁ generalizing V with
  | nil => rfl
  | cons op l ih => simp only [List.cons_append, StableHlo.after_cons, ih]

/-! ## The five pieces -/

/-- The compare of the source words with zero and their sum with 50000. -/
abbrev takeWrapTests : List (HloOp τ sig (Elt Ideal)) :=
  [ StableHlo.TRef.nullary (.of main_call1_c : StableHlo.TRef sig ⟨S_, .i32⟩) (constantI S_ 32 0#32),
    StableHlo.TRef.unary (.of main_call1_c : StableHlo.TRef sig ⟨S_, .i32⟩) (.of main_call1_v0 : StableHlo.TRef sig ⟨S1300000, .i32⟩) (broadcastInDim S1300000 ![] bcast_S_S1300000),
    StableHlo.TRef.binary (.of main_v3 : StableHlo.TRef sig ⟨S1300000, .i32⟩) (.of main_call1_v0 : StableHlo.TRef sig ⟨S1300000, .i32⟩) (.of main_call1_v1 : StableHlo.TRef sig ⟨S1300000, .i1⟩) (cmpi .slt),
    StableHlo.TRef.nullary (.of main_call1_c_0 : StableHlo.TRef sig ⟨S_, .i32⟩) (constantI S_ 32 50000#32),
    StableHlo.TRef.unary (.of main_call1_c_0 : StableHlo.TRef sig ⟨S_, .i32⟩) (.of main_call1_v2 : StableHlo.TRef sig ⟨S1300000, .i32⟩) (broadcastInDim S1300000 ![] bcast_S_S1300000),
    StableHlo.TRef.binary (.of main_v3 : StableHlo.TRef sig ⟨S1300000, .i32⟩) (.of main_call1_v2 : StableHlo.TRef sig ⟨S1300000, .i32⟩) (.of main_call1_v3 : StableHlo.TRef sig ⟨S1300000, .i32⟩) addi ]

/-- The wrap's select, and its broadcast to the column of start indices. -/
abbrev takeStartCol : List (HloOp τ sig (Elt Ideal)) :=
  [ StableHlo.TRef.ternary (.of main_call1_v1 : StableHlo.TRef sig ⟨S1300000, .i1⟩) (.of main_call1_v3 : StableHlo.TRef sig ⟨S1300000, .i32⟩) (.of main_v3 : StableHlo.TRef sig ⟨S1300000, .i32⟩) (.of main_call1_v4 : StableHlo.TRef sig ⟨S1300000, .i32⟩) select,
    StableHlo.TRef.unary main_call1_call0.v0 (.of main_call1_v5 : StableHlo.TRef sig ⟨S1300000x1, .i32⟩) (broadcastInDim S1300000x1 ![0] bcast_S1300000_S1300000x1_0) ]

/-- The two range tests of the start column, against 0 and against 49999. -/
abbrev takeRangeTests : List (HloOp τ sig (Elt Ideal)) :=
  [ StableHlo.TRef.nullary (.of main_call1_c_1 : StableHlo.TRef sig ⟨S1, .i32⟩) (constantI S1 32 49999#32),
    StableHlo.TRef.nullary (.of main_call1_c_2 : StableHlo.TRef sig ⟨S_, .i32⟩) (constantI S_ 32 0#32),
    StableHlo.TRef.unary (.of main_call1_c_2 : StableHlo.TRef sig ⟨S_, .i32⟩) (.of main_call1_v6 : StableHlo.TRef sig ⟨S1300000x1, .i32⟩) (broadcastInDim S1300000x1 ![] bcast_S_S1300000x1),
    StableHlo.TRef.binary (.of main_call1_v5 : StableHlo.TRef sig ⟨S1300000x1, .i32⟩) (.of main_call1_v6 : StableHlo.TRef sig ⟨S1300000x1, .i32⟩) (.of main_call1_v7 : StableHlo.TRef sig ⟨S1300000x1, .i1⟩) (cmpi .sge),
    StableHlo.TRef.unary (.of main_call1_c_1 : StableHlo.TRef sig ⟨S1, .i32⟩) (.of main_call1_v8 : StableHlo.TRef sig ⟨S1x1, .i32⟩) (broadcastInDim S1x1 ![1] bcast_S1_S1x1_1),
    StableHlo.TRef.unary (.of main_call1_v8 : StableHlo.TRef sig ⟨S1x1, .i32⟩) (.of main_call1_v9 : StableHlo.TRef sig ⟨S1300000x1, .i32⟩) (broadcastInDim S1300000x1 ![0, 1] bcast_S1x1_S1300000x1_0_1),
    StableHlo.TRef.binary (.of main_call1_v5 : StableHlo.TRef sig ⟨S1300000x1, .i32⟩) (.of main_call1_v9 : StableHlo.TRef sig ⟨S1300000x1, .i32⟩) (.of main_call1_v10 : StableHlo.TRef sig ⟨S1300000x1, .i1⟩) (cmpi .sle) ]

/-- The conjunction of the two tests, reduced over the size-one axis. -/
abbrev takeMask : List (HloOp τ sig (Elt Ideal)) :=
  [ StableHlo.TRef.binary (.of main_call1_v7 : StableHlo.TRef sig ⟨S1300000x1, .i1⟩) (.of main_call1_v10 : StableHlo.TRef sig ⟨S1300000x1, .i1⟩) (.of main_call1_v11 : StableHlo.TRef sig ⟨S1300000x1, .i1⟩) andi,
    StableHlo.TRef.nullary (.of main_call1_c_3 : StableHlo.TRef sig ⟨S_, .i1⟩) (constantI S_ 1 1#1),
    StableHlo.TRef.binary (.of main_call1_v11 : StableHlo.TRef sig ⟨S1300000x1, .i1⟩) (.of main_call1_c_3 : StableHlo.TRef sig ⟨S_, .i1⟩) (.of main_call1_v12 : StableHlo.TRef sig ⟨S1300000, .i1⟩) (fun x v => Host.reduce IntOp.andi x v reducesTo_S1300000x1_S1300000_d1 h_S_) ]

/-- The gather, the broadcast mask, the fill word, and the select between gathered rows and fill. -/
abbrev takeSelect : List (HloOp τ sig (Elt Ideal)) :=
  [ StableHlo.TRef.binary (.of main_v18 : StableHlo.TRef sig ⟨S50000x64, .f32⟩) (.of main_call1_v5 : StableHlo.TRef sig ⟨S1300000x1, .i32⟩) (.of main_call1_v13 : StableHlo.TRef sig ⟨S1300000x64, .f32⟩) (fun x i => Host.gather gather_S50000x64_S1300000x1_S1300000x64_1_0_n_n_0_1_164 x i),
    StableHlo.TRef.unary (.of main_call1_v12 : StableHlo.TRef sig ⟨S1300000, .i1⟩) (.of main_call1_v14 : StableHlo.TRef sig ⟨S1300000x64, .i1⟩) (broadcastInDim S1300000x64 ![0] bcast_S1300000_S1300000x64_0),
    StableHlo.TRef.nullary (.of main_call1_cst : StableHlo.TRef sig ⟨S_, .f32⟩) (constant (F := Ideal) S_ .f32 0x7FC00000#32),
    StableHlo.TRef.unary (.of main_call1_cst : StableHlo.TRef sig ⟨S_, .f32⟩) (.of main_call1_v15 : StableHlo.TRef sig ⟨S1300000x64, .f32⟩) (broadcastInDim S1300000x64 ![] bcast_S_S1300000x64),
    StableHlo.TRef.ternary (.of main_call1_v14 : StableHlo.TRef sig ⟨S1300000x64, .i1⟩) (.of main_call1_v13 : StableHlo.TRef sig ⟨S1300000x64, .f32⟩) (.of main_call1_v15 : StableHlo.TRef sig ⟨S1300000x64, .f32⟩) (.of main_v19 : StableHlo.TRef sig ⟨S1300000x64, .f32⟩) select ]

/-- The mask piece with any function `g` in the reduction's place: the conjunction, the initial bit, then `g` of both. -/
abbrev maskWith (g : IVec S1300000x1 1 → IVec S_ 1 → IVec S1300000 1) : List (HloOp τ sig (Elt Ideal)) :=
  [ StableHlo.TRef.binary (.of main_call1_v7 : StableHlo.TRef sig ⟨S1300000x1, .i1⟩) (.of main_call1_v10 : StableHlo.TRef sig ⟨S1300000x1, .i1⟩) (.of main_call1_v11 : StableHlo.TRef sig ⟨S1300000x1, .i1⟩) andi,
    StableHlo.TRef.nullary (.of main_call1_c_3 : StableHlo.TRef sig ⟨S_, .i1⟩) (constantI S_ 1 1#1),
    StableHlo.TRef.binary (.of main_call1_v11 : StableHlo.TRef sig ⟨S1300000x1, .i1⟩) (.of main_call1_c_3 : StableHlo.TRef sig ⟨S_, .i1⟩) (.of main_call1_v12 : StableHlo.TRef sig ⟨S1300000, .i1⟩) g ]

/-- The mask piece is that list at the reduction by `and` over the size-one axis. -/
theorem takeMask_eq : takeMask
    = maskWith (fun x v => Host.reduce IntOp.andi x v reducesTo_S1300000x1_S1300000_d1 h_S_) := rfl

/-- The stretch is its five pieces in order. -/
theorem takeStretch_split :
    (hostOps1 (F := Ideal)) = takeWrapTests ++ (takeStartCol ++ (takeRangeTests ++ (takeMask ++ takeSelect))) := rfl

/-! ## Each piece as a function of the buffers it reads -/

section Pieces

variable (V : Valuation τ sig (Elt Ideal))

theorem wrapTests_neg : StableHlo.after takeWrapTests V (Proc.devRef .tc main_call1_v1)
    = (cmpi .slt (V (Proc.devRef .tc main_v3)) (broadcastInDim S1300000 ![] Facts₀.bcast_S_S1300000 (constantI S_ 32 0#32)) : S1300000.Idx → BitVec 1) := by
  after_results <;> rfl
theorem wrapTests_shift : StableHlo.after takeWrapTests V (Proc.devRef .tc main_call1_v3)
    = (addi (V (Proc.devRef .tc main_v3)) (broadcastInDim S1300000 ![] Facts₀.bcast_S_S1300000 (constantI S_ 32 50000#32)) : S1300000.Idx → BitVec 32) := by
  after_results <;> rfl
theorem wrapTests_src (V : Valuation τ sig (Elt Ideal)) : StableHlo.after takeWrapTests V (Proc.devRef .tc main_v3) = V (Proc.devRef .tc main_v3) := by
  after_results
theorem wrapTests_table (V : Valuation τ sig (Elt Ideal)) : StableHlo.after takeWrapTests V (Proc.devRef .tc main_v18) = V (Proc.devRef .tc main_v18) := by
  after_results

theorem startCol_value : StableHlo.after takeStartCol V (Proc.devRef .tc main_call1_v5)
    = (broadcastInDim S1300000x1 ![0] Facts₀.bcast_S1300000_S1300000x1_0
        (select (V (Proc.devRef .tc main_call1_v1)) (V (Proc.devRef .tc main_call1_v3)) (V (Proc.devRef .tc main_v3))) : S1300000x1.Idx → BitVec 32) := by
  after_results <;> rfl
theorem startCol_table (V : Valuation τ sig (Elt Ideal)) : StableHlo.after takeStartCol V (Proc.devRef .tc main_v18) = V (Proc.devRef .tc main_v18) := by
  after_results

theorem rangeTests_ge : StableHlo.after takeRangeTests V (Proc.devRef .tc main_call1_v7)
    = (cmpi .sge (V (Proc.devRef .tc main_call1_v5)) (broadcastInDim S1300000x1 ![] Facts₀.bcast_S_S1300000x1 (constantI S_ 32 0#32)) : S1300000x1.Idx → BitVec 1) := by
  after_results <;> rfl
theorem rangeTests_le : StableHlo.after takeRangeTests V (Proc.devRef .tc main_call1_v10)
    = (cmpi .sle (V (Proc.devRef .tc main_call1_v5)) (broadcastInDim S1300000x1 ![0, 1] Facts₀.bcast_S1x1_S1300000x1_0_1
        (broadcastInDim S1x1 ![1] Facts₀.bcast_S1_S1x1_1 (constantI S1 32 49999#32))) : S1300000x1.Idx → BitVec 1) := by
  after_results <;> rfl
theorem rangeTests_start (V : Valuation τ sig (Elt Ideal)) : StableHlo.after takeRangeTests V (Proc.devRef .tc main_call1_v5) = V (Proc.devRef .tc main_call1_v5) := by
  after_results
theorem rangeTests_table (V : Valuation τ sig (Elt Ideal)) : StableHlo.after takeRangeTests V (Proc.devRef .tc main_v18) = V (Proc.devRef .tc main_v18) := by
  after_results

/-- With any `g` in the reduction's place the piece leaves `g` of the conjunction and of the initial bit; the reduction
    by `and` over the size-one axis is one such `g`. -/
theorem maskWith_value (g : IVec S1300000x1 1 → IVec S_ 1 → IVec S1300000 1) :
    StableHlo.after (maskWith g) V (Proc.devRef .tc main_call1_v12)
      = (g (andi (V (Proc.devRef .tc main_call1_v7)) (V (Proc.devRef .tc main_call1_v10))) (constantI S_ 1 1#1) : S1300000.Idx → BitVec 1) := by
  after_results <;> rfl

theorem mask_value : StableHlo.after takeMask V (Proc.devRef .tc main_call1_v12)
    = (Host.reduce IntOp.andi (andi (V (Proc.devRef .tc main_call1_v7)) (V (Proc.devRef .tc main_call1_v10))) (constantI S_ 1 1#1)
        reducesTo_S1300000x1_S1300000_d1 h_S_ : S1300000.Idx → BitVec 1) := by
  rw [takeMask_eq, maskWith_value]
theorem mask_start (V : Valuation τ sig (Elt Ideal)) : StableHlo.after takeMask V (Proc.devRef .tc main_call1_v5) = V (Proc.devRef .tc main_call1_v5) := by
  after_results
theorem mask_table (V : Valuation τ sig (Elt Ideal)) : StableHlo.after takeMask V (Proc.devRef .tc main_v18) = V (Proc.devRef .tc main_v18) := by
  after_results

theorem select_value : StableHlo.after takeSelect V (Proc.devRef .tc main_v19)
    = (select (broadcastInDim S1300000x64 ![0] Facts₀.bcast_S1300000_S1300000x64_0 (V (Proc.devRef .tc main_call1_v12)))
        (Host.gather gather_S50000x64_S1300000x1_S1300000x64_1_0_n_n_0_1_164 (V (Proc.devRef .tc main_v18)) (V (Proc.devRef .tc main_call1_v5)))
        (broadcastInDim S1300000x64 ![] Facts₀.bcast_S_S1300000x64 (constant (F := Ideal) S_ .f32 0x7FC00000#32)) : S1300000x64.Idx → EReal) := by
  after_results <;> rfl

end Pieces

/-! ## The stretch -/

/-- Over any contents, the stretch leaves in its result buffer the masked row gather of the table buffer at the source
    buffer. -/
theorem take_stage (V : Valuation τ sig (Elt Ideal)) :
    StableHlo.after (hostOps1 (F := Ideal)) V (Proc.devRef .tc main_v19)
      = (takeRows (V (Proc.devRef .tc main_v18)) (V (Proc.devRef .tc main_v3)) : S1300000x64.Idx → EReal) := by
  rw [takeStretch_split, after_append, after_append, after_append, after_append]
  rw [select_value, mask_value, mask_table, mask_start, rangeTests_ge, rangeTests_le, rangeTests_table, rangeTests_start,
    startCol_value, startCol_table, wrapTests_neg, wrapTests_shift, wrapTests_src, wrapTests_table]
  unfold takeRows startCol wrapIdx
  rfl

end Cert.Gcn

end
-- ==== Proof.KernelValue.lean ====
/-
  The buffer contents at each boundary of the kernel program, from the launch memory to the result: after the host
  stretch before the first region, after that region, after the host stretch between the regions, after the second region.
  Each boundary's contents are the host operations' values of the previous boundary's, and a region's result array is the
  whole-array function of the arrays it entered with.
-/
import proofs.«409217_j82686710383106_3_alg».proof.Proof.HostValues
import proofs.«409217_j82686710383106_3_alg».proof.Proof.Blocks
import proofs.«409217_j82686710383106_3_alg».proof.Proof.TakeStage
import proofs.«409217_j82686710383106_3_alg».proof.Proof.Gen.KernelIdeal.Frame
import Idealize.ShloMosaic.Lib.StableHlo.Run

set_option maxRecDepth 16384

noncomputable section

namespace Cert.Gcn

open Idealize.ShloMosaic Idealize.ShloMosaic.TcCoe Idealize.ShloMosaic.ValueIdx Idealize.SL.Sem Idealize.ShloMosaic.StableHlo
open Idealize.ShloMosaic.Pipeline (Dat)
open Cert.KernelIdeal Cert.KernelIdeal.Gen
open Cert.KernelIdeal.Facts₀

variable (m : (ℓ : Loc nD τ sig) → Buf (Elt Ideal) ℓ) (ρ : Dev nD → PrngReg)

/-! ## Up to the first region: the contents it enters with -/

set_option maxHeartbeats 1000000 in
theorem entry0_arg0 (c : Dev nD) : W3 m ρ c (Proc.devRef .tc main_arg0) = (m ((c.tc : Thread nD τ).loc main_arg0)) := by
  dsimp only [W3, W2, W1]; after_results
set_option maxHeartbeats 1000000 in
theorem entry0_arg3 (c : Dev nD) : W3 m ρ c (Proc.devRef .tc main_arg3) = (m ((c.tc : Thread nD τ).loc main_arg3)) := by
  dsimp only [W3, W2, W1]; after_results
set_option maxHeartbeats 1000000 in
theorem entry0_arg4 (c : Dev nD) : W3 m ρ c (Proc.devRef .tc main_arg4) = (m ((c.tc : Thread nD τ).loc main_arg4)) := by
  dsimp only [W3, W2, W1]; after_results
set_option maxHeartbeats 1000000 in
theorem entry0_src (c : Dev nD) : W3 m ρ c (Proc.devRef .tc main_v3) = (kSrc (m ((c.tc : Thread nD τ).loc main_arg1)) : S1300000.Idx → BitVec 32) := by
  dsimp only [W3, W2, W1]; after_results <;> rfl
set_option maxHeartbeats 1000000 in
theorem entry0_dst (c : Dev nD) : W3 m ρ c (Proc.devRef .tc main_v6) = (kDst (m ((c.tc : Thread nD τ).loc main_arg1)) : S1300000.Idx → BitVec 32) := by
  dsimp only [W3, W2, W1]; after_results <;> rfl
set_option maxHeartbeats 1000000 in
theorem entry0_ew (c : Dev nD) : W3 m ρ c (Proc.devRef .tc main_v8) = (kEw (m ((c.tc : Thread nD τ).loc main_arg2)) : S1300000.Idx → EReal) := by
  dsimp only [W3, W2, W1]; after_results <;> rfl

/-- The degree's three consumers after the first host stretch: the compare, the reciprocal root, the zero. -/
theorem pre_cmp (c : Dev nD) : W1 m ρ c (Proc.devRef .tc main_v13)
    = (cmpf .ogt (kDeg (m ((c.tc : Thread nD τ).loc main_arg1)) (m ((c.tc : Thread nD τ).loc main_arg2))) (broadcastInDim S50000 ![] Facts₀.bcast_S_S50000 (constant (F := Ideal) S_ .f32 0x00000000#32)) : S50000.Idx → BitVec 1) := by
  dsimp only [W1]; after_results <;> rfl
theorem pre_rsqrt (c : Dev nD) : W1 m ρ c (Proc.devRef .tc main_v14)
    = (Host.rsqrt (kDeg (m ((c.tc : Thread nD τ).loc main_arg1)) (m ((c.tc : Thread nD τ).loc main_arg2))) : S50000.Idx → EReal) := by
  dsimp only [W1]; after_results <;> rfl
theorem pre_zero (c : Dev nD) : W1 m ρ c (Proc.devRef .tc main_v15)
    = (broadcastInDim S50000 ![] Facts₀.bcast_S_S50000 (constant (F := Ideal) S_ .f32 0x00000000#32) : S50000.Idx → EReal) := by
  dsimp only [W1]; after_results <;> rfl

/-- The select stretch over any contents: the result is the select of the three buffers it reads. -/
theorem select_stage (V : Valuation τ sig (Elt Ideal)) :
    StableHlo.after (hostOps0_1 (F := Ideal)) V (Proc.devRef .tc main_v16)
      = (select (V (Proc.devRef .tc main_v13)) (V (Proc.devRef .tc main_v14)) (V (Proc.devRef .tc main_v15)) : S50000.Idx → EReal) := by
  after_results <;> rfl

/-- The node factor after the select. -/
theorem pre_dinv (c : Dev nD) : W2 m ρ c (Proc.devRef .tc main_v16) = (kDinv (m ((c.tc : Thread nD τ).loc main_arg1)) (m ((c.tc : Thread nD τ).loc main_arg2)) : S50000.Idx → EReal) := by
  refine (select_stage (W1 m ρ c)).trans ?_
  rw [pre_cmp, pre_rsqrt, pre_zero]
  rfl

/-- The node-factor column as the first region finds it. -/
theorem entry0_col (c : Dev nD) : W3 m ρ c (Proc.devRef .tc main_v17) = (kCol (m ((c.tc : Thread nD τ).loc main_arg1)) (m ((c.tc : Thread nD τ).loc main_arg2)) : S50000x1.Idx → EReal) := by
  have h16 := pre_dinv m ρ c
  dsimp only [W3]
  generalize W2 m ρ c = V2 at h16 ⊢
  after_results
  rw [h16]
  rfl

/-! ## After the first region -/

/-- The first region's result array: the row-scaled product. -/
theorem exit0_proj (c : Dev nD) : W4 m ρ c (Proc.devRef .tc main_v18)
    = (scaledProj (m ((c.tc : Thread nD τ).loc main_arg0)) (m ((c.tc : Thread nD τ).loc main_arg3)) (kCol (m ((c.tc : Thread nD τ).loc main_arg1)) (m ((c.tc : Thread nD τ).loc main_arg2))) : S50000x64.Idx → EReal) := by
  refine (W4_arr m ρ c 3).trans ((Blocks.first_region (V3 m ρ) c).trans ?_)
  show scaledProj (W3 m ρ c (Proc.devRef .tc main_arg0)) (W3 m ρ c (Proc.devRef .tc main_arg3)) (W3 m ρ c (Proc.devRef .tc main_v17)) = _
  rw [entry0_arg0, entry0_arg3, entry0_col]

theorem exit0_col (c : Dev nD) : W4 m ρ c (Proc.devRef .tc main_v17) = (kCol (m ((c.tc : Thread nD τ).loc main_arg1)) (m ((c.tc : Thread nD τ).loc main_arg2)) : S50000x1.Idx → EReal) :=
  ((W4_arr m ρ c 2).trans (((dat0 (V3 m ρ) c).arrAt_in 2 rfl _).trans (A_eq0 (V3 m ρ) c 2))).trans (entry0_col m ρ c)
theorem exit0_src (c : Dev nD) : W4 m ρ c (Proc.devRef .tc main_v3) = (kSrc (m ((c.tc : Thread nD τ).loc main_arg1)) : S1300000.Idx → BitVec 32) :=
  (W4_of_ne m ρ c main_v3 (by decide)).trans (entry0_src m ρ c)
theorem exit0_dst (c : Dev nD) : W4 m ρ c (Proc.devRef .tc main_v6) = (kDst (m ((c.tc : Thread nD τ).loc main_arg1)) : S1300000.Idx → BitVec 32) :=
  (W4_of_ne m ρ c main_v6 (by decide)).trans (entry0_dst m ρ c)
theorem exit0_ew (c : Dev nD) : W4 m ρ c (Proc.devRef .tc main_v8) = (kEw (m ((c.tc : Thread nD τ).loc main_arg2)) : S1300000.Idx → EReal) :=
  (W4_of_ne m ρ c main_v8 (by decide)).trans (entry0_ew m ρ c)
theorem exit0_arg4 (c : Dev nD) : W4 m ρ c (Proc.devRef .tc main_arg4) = (m ((c.tc : Thread nD τ).loc main_arg4)) :=
  (W4_of_ne m ρ c main_arg4 (by decide)).trans (entry0_arg4 m ρ c)

/-! ## Between the regions -/

set_option maxHeartbeats 2000000 in
/-- The gathered rows. -/
theorem mid_rows (c : Dev nD) : W5 m ρ c (Proc.devRef .tc main_v19)
    = (takeRows (scaledProj (m ((c.tc : Thread nD τ).loc main_arg0)) (m ((c.tc : Thread nD τ).loc main_arg3)) (kCol (m ((c.tc : Thread nD τ).loc main_arg1)) (m ((c.tc : Thread nD τ).loc main_arg2)))) (kSrc (m ((c.tc : Thread nD τ).loc main_arg1))) : S1300000x64.Idx → EReal) := by
  refine (take_stage (W4 m ρ c)).trans ?_
  rw [exit0_proj, exit0_src]
set_option maxHeartbeats 2000000 in
theorem mid_dst (c : Dev nD) : W5 m ρ c (Proc.devRef .tc main_v6) = (kDst (m ((c.tc : Thread nD τ).loc main_arg1)) : S1300000.Idx → BitVec 32) := by
  have h := exit0_dst m ρ c
  dsimp only [W5]
  generalize W4 m ρ c = V4 at h ⊢
  after_results
  exact h
set_option maxHeartbeats 2000000 in
theorem mid_ew (c : Dev nD) : W5 m ρ c (Proc.devRef .tc main_v8) = (kEw (m ((c.tc : Thread nD τ).loc main_arg2)) : S1300000.Idx → EReal) := by
  have h := exit0_ew m ρ c
  dsimp only [W5]
  generalize W4 m ρ c = V4 at h ⊢
  after_results
  exact h
set_option maxHeartbeats 2000000 in
theorem mid_arg4 (c : Dev nD) : W5 m ρ c (Proc.devRef .tc main_arg4) = (m ((c.tc : Thread nD τ).loc main_arg4)) := by
  have h := exit0_arg4 m ρ c
  dsimp only [W5]
  generalize W4 m ρ c = V4 at h ⊢
  after_results
  exact h
set_option maxHeartbeats 2000000 in
theorem mid_col (c : Dev nD) : W5 m ρ c (Proc.devRef .tc main_v17) = (kCol (m ((c.tc : Thread nD τ).loc main_arg1)) (m ((c.tc : Thread nD τ).loc main_arg2)) : S50000x1.Idx → EReal) := by
  have h := exit0_col m ρ c
  dsimp only [W5]
  generalize W4 m ρ c = V4 at h ⊢
  after_results
  exact h

/-! ## What the second region enters with -/

theorem entry1_acc (c : Dev nD) : W6 m ρ c (Proc.devRef .tc main_v25)
    = (kAcc (m ((c.tc : Thread nD τ).loc main_arg0)) (m ((c.tc : Thread nD τ).loc main_arg1)) (m ((c.tc : Thread nD τ).loc main_arg2)) (m ((c.tc : Thread nD τ).loc main_arg3)) : S50000x64.Idx → EReal) := by
  have h19 := mid_rows m ρ c
  have h6 := mid_dst m ρ c
  have h8 := mid_ew m ρ c
  dsimp only [W6]
  generalize W5 m ρ c = V5 at h19 h6 h8 ⊢
  after_results
  rw [h19, h6, h8]
  rfl
theorem entry1_col (c : Dev nD) : W6 m ρ c (Proc.devRef .tc main_v17) = (kCol (m ((c.tc : Thread nD τ).loc main_arg1)) (m ((c.tc : Thread nD τ).loc main_arg2)) : S50000x1.Idx → EReal) := by
  have h := mid_col m ρ c
  dsimp only [W6]
  generalize W5 m ρ c = V5 at h ⊢
  after_results
  exact h
theorem entry1_bias (c : Dev nD) : W6 m ρ c (Proc.devRef .tc main_v26)
    = (shapeCast S1x64 (m ((c.tc : Thread nD τ).loc main_arg4)) Facts₀.shapeCasts_S64_S1x64 : S1x64.Idx → EReal) := by
  have h := mid_arg4 m ρ c
  dsimp only [W6]
  generalize W5 m ρ c = V5 at h ⊢
  after_results
  rw [h]
  rfl

/-! ## The result -/

/-- The result buffer at the last boundary is the kernel program's value of the launch contents of its arguments. -/
theorem result_value (c : Dev nD) : W7 m ρ c (Proc.devRef .tc main_v27)
    = (kernelValue (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) : S50000x64.Idx → EReal) := by
  refine (W7_arr m ρ c 3).trans ((Blocks.second_region (V6 m ρ) c).trans ?_)
  show finalize (W6 m ρ c (Proc.devRef .tc main_v25)) (W6 m ρ c (Proc.devRef .tc main_v17)) (W6 m ρ c (Proc.devRef .tc main_v26)) = _
  rw [entry1_acc, entry1_col, entry1_bias]
  rfl

end Cert.Gcn

end
-- ==== Proof.FactorLaw.lean ====
/-
  The two facts about extended reals that join the programs.

  (1) A factor `d` with `0 ≤ d < ⊤` distributes over any finite sum of extended reals. (Multiplication on the extended
      reals does not distribute in general: `(1 + (-1)) · ⊤ = 0` while `⊤ + ⊥ = ⊥`; a non-negative finite factor is the
      case in which it does, whatever the summands are.)
  (2) The node factor `d = if deg > 0 then 1 / √deg else 0` is such a factor for EVERY extended-real degree: it is `0`
      where `deg ≤ 0`, `0` at `deg = ⊤`, and the positive real `(√deg)⁻¹` for a positive real degree.
  Together they move the destination's node factor inside the sum over incoming edges without any finiteness assumption.
-/
import Mathlib.Data.EReal.Operations
import Mathlib.Algebra.BigOperators.Group.Finset.Basic
import Mathlib.Analysis.SpecialFunctions.Sqrt
import Idealize.ShloMosaic.PureOps.Ideal

noncomputable section

namespace Cert.Gcn

open Idealize.ShloMosaic

/-- A non-negative finite factor distributes over a finite sum of extended reals. -/
theorem sum_mul_of_nonneg_ne_top {ι : Type*} (s : Finset ι) (f : ι → EReal) {d : EReal} (h0 : 0 ≤ d) (ht : d ≠ ⊤) :
    (∑ j ∈ s, f j) * d = ∑ j ∈ s, f j * d := by
  classical
  induction s using Finset.induction_on with
  | empty => simp
  | insert a s ha ih =>
    rw [Finset.sum_insert ha, Finset.sum_insert ha, EReal.right_distrib_of_nonneg_of_ne_top h0 ht, ih]

/-- The reciprocal square root at a degree that compares above zero, else zero: non-negative and never `⊤`. -/
theorem nodeFactor_range (deg : EReal) :
    0 ≤ Scalar.select (Ideal.cmp .ogt deg 0) (Ideal.rsqrt deg) (0 : EReal)
      ∧ Scalar.select (Ideal.cmp .ogt deg 0) (Ideal.rsqrt deg) (0 : EReal) ≠ ⊤ := by
  by_cases h : (0 : EReal) < deg
  · have hc : Ideal.cmp .ogt deg 0 = 1#1 := by simp [Ideal.cmp, h]
    rw [hc]
    show 0 ≤ (if (1#1 : BitVec 1) = 1#1 then Ideal.rsqrt deg else 0) ∧ (if (1#1 : BitVec 1) = 1#1 then Ideal.rsqrt deg else 0) ≠ ⊤
    rw [if_pos rfl]
    induction deg using EReal.rec with
    | bot => exact absurd h (by simp)
    | top => simp
    | coe r =>
      have hr : 0 < r := by exact_mod_cast h
      rw [Ideal.rsqrt_coe, if_neg (not_lt.2 hr.le), if_neg hr.ne']
      refine ⟨?_, EReal.coe_ne_top _⟩
      exact_mod_cast (inv_nonneg.2 (Real.sqrt_nonneg r))
  · have hc : Ideal.cmp .ogt deg 0 = 0#1 := by simp [Ideal.cmp, h]
    rw [hc]
    show 0 ≤ (if (0#1 : BitVec 1) = 1#1 then Ideal.rsqrt deg else 0) ∧ (if (0#1 : BitVec 1) = 1#1 then Ideal.rsqrt deg else 0) ≠ ⊤
    rw [if_neg (by decide)]
    exact ⟨le_refl _, EReal.zero_ne_top⟩

end Cert.Gcn

end
-- ==== Proof.SharedValues.lean ====
/-
  The host values both programs compute. Before anything differs, the kernel program and the reference apply the same
  host operations to the edge list and the edge weights: sources and destinations with the self loops appended, the
  weights with a one per self loop, the weighted in-degree, the node factor. Each program spells them with its own
  records of the same dimension numbers, so the terms are equal by unfolding. The reference gathers at the wrapped
  sources and destinations, broadcast to a column: the same start-index columns the kernel's gather takes.
-/
import proofs.«409217_j82686710383106_3_alg».proof.Proof.HostValues

set_option maxRecDepth 16384

noncomputable section

namespace Cert.Gcn

open Idealize.ShloMosaic Idealize.ShloMosaic.ValueIdx
open Cert.KernelIdeal
open Cert.KernelIdeal.Facts₀
open Cert.ReferenceIdeal.Read

/-! ## The host values both programs share -/

theorem kSrc_eq (ei : IVec S2x1250000 32) : kSrc ei = val_main_v3 (F := Ideal) ei := rfl
theorem kDst_eq (ei : IVec S2x1250000 32) : kDst ei = val_main_v6 (F := Ideal) ei := rfl
theorem kEw_eq (ea : FVec Ideal S1250000 .f32) : kEw ea = val_main_v8 (F := Ideal) ea := rfl
theorem kDeg_eq (ei : IVec S2x1250000 32) (ea : FVec Ideal S1250000 .f32) : kDeg ei ea = val_main_v11 (F := Ideal) ei ea := rfl
theorem kDinv_eq (ei : IVec S2x1250000 32) (ea : FVec Ideal S1250000 .f32) : kDinv ei ea = val_main_v16 (F := Ideal) ei ea := rfl

/-! ## The reference's start-index arrays are the wrapped source and destination columns -/

theorem refSrcRows_eq (ei : IVec S2x1250000 32) : val_main_v39 (F := Ideal) ei = startCol (kSrc ei) := rfl
theorem refSrcNode_eq (ei : IVec S2x1250000 32) : val_main_v22 (F := Ideal) ei = startCol (kSrc ei) := rfl
theorem refDstNode_eq (ei : IVec S2x1250000 32) : val_main_v30 (F := Ideal) ei = startCol (kDst ei) := rfl

end Cert.Gcn

end
-- ==== Proof.IndexReads.lean ====
/-
  Index-by-index readings of the layout operations around the two sums: the node-factor column and the bias row (reshapes
  of a vector), a zero splat, a per-edge vector spread along the features, the two regions' functions at a node and a
  feature, and the node factor at a node — which is non-negative and finite whatever the degree is.
-/
import proofs.«409217_j82686710383106_3_alg».proof.Proof.HostValues
import proofs.«409217_j82686710383106_3_alg».proof.Proof.FactorLaw
import Idealize.ShloMosaic.Lib.Pipeline.Value
import Idealize.ShloMosaic.PureOps.Ideal.Laws

set_option maxRecDepth 16384

noncomputable section

namespace Cert.Gcn

open Idealize.ShloMosaic Idealize.ShloMosaic.ValueIdx
open Cert.KernelIdeal
open Cert.KernelIdeal.Facts₀
open Cert.ReferenceIdeal.Read

/-! ## Reading the reshapes and the node factor at an index -/

/-- The node-factor column at row `u` is the node factor of `u`. -/
theorem kCol_apply (ei : IVec S2x1250000 32) (ea : FVec Ideal S1250000 .f32) (u : Fin 50000) :
    kCol ei ea (ix2 u 0) = kDinv ei ea (ix1 u) := by
  unfold kCol
  generalize kDinv ei ea = y
  exact shapeCast_apply y shapeCasts_S50000_S50000x1 (ix2 u 0) (ix1 u)
    (by rewrite [Shape.rowMajor_val_one, Shape.rowMajor_val_two]; show u.val = u.val * 1 + 0; omega)

/-- The bias row at column `c` is the bias of `c`. -/
theorem biasRow_apply (b : FVec Ideal S64 .f32) (c : Fin 64) :
    shapeCast S1x64 b shapeCasts_S64_S1x64 (ix2 0 c) = b (ix1 c) :=
  shapeCast_apply b shapeCasts_S64_S1x64 (ix2 0 c) (ix1 c)
    (by rewrite [Shape.rowMajor_val_one, Shape.rowMajor_val_two]; show c.val = 0 * 64 + c.val; omega)

/-- A zero splat reads zero. -/
theorem zeros_apply {t : Shape} (h : S_.BroadcastsInDim t ![]) (j : t.Idx) :
    broadcastInDim t ![] h (constant (F := Ideal) S_ .f32 0x00000000#32) j = 0 := by
  rw [broadcastInDim_apply _ _ _ j ix0 (fun a => a.elim0), constant_apply, Ideal.ofBits_zero_f32]

/-- The select of the reciprocal root where the degree compares above zero, read at a node. -/
theorem nodeFactor_at (y : FVec Ideal S50000 .f32) (u : S50000.Idx) :
    select (cmpf .ogt y (broadcastInDim S50000 ![] bcast_S_S50000 (constant (F := Ideal) S_ .f32 0x00000000#32))) (Host.rsqrt y)
        (broadcastInDim S50000 ![] bcast_S_S50000 (constant (F := Ideal) S_ .f32 0x00000000#32)) u
      = Scalar.select (Ideal.cmp .ogt (y u) 0) (Ideal.rsqrt (y u)) (0 : EReal) := by
  rw [select_apply, cmpf_apply, zeros_apply]
  rfl

/-- The node factor is non-negative and finite at every node, whatever the degree. -/
theorem kDinv_range (ei : IVec S2x1250000 32) (ea : FVec Ideal S1250000 .f32) (u : S50000.Idx) :
    0 ≤ kDinv ei ea u ∧ kDinv ei ea u ≠ ⊤ := by
  have h : kDinv ei ea u = Scalar.select (Ideal.cmp .ogt (kDeg ei ea u) 0) (Ideal.rsqrt (kDeg ei ea u)) (0 : EReal) :=
    nodeFactor_at (kDeg ei ea) u
  rw [h]
  exact nodeFactor_range _

/-! ## Reading the broadcasts of per-edge vectors -/

/-- A per-edge vector spread along the 64 features reads, at update `(e, c)`, its entry for `e`. -/
theorem perEdge_apply {α : Type} (w : S1300000.Idx → α) (j : S1300000x64.Idx) :
    broadcastInDim S1300000x64 ![0, 1] bcast_S1300000x1_S1300000x64_0_1
      (broadcastInDim S1300000x1 ![0] bcast_S1300000_S1300000x1_0 w) j = w (ix1 (j 0)) := by
  generalize hy : broadcastInDim S1300000x1 ![0] bcast_S1300000_S1300000x1_0 w = y
  have h1 : broadcastInDim S1300000x64 ![0, 1] bcast_S1300000x1_S1300000x64_0_1 y j = y (ix2 (j 0) 0) :=
    broadcastInDim_apply _ bcast_S1300000x1_S1300000x64_0_1 y j (ix2 (j 0) 0) (fun a => match a with
      | ⟨0, _⟩ => by show (j 0).val = if (1300000 : Nat) = 1 then 0 else (j 0).val; rw [if_neg (by decide)]
      | ⟨1, _⟩ => by show 0 = if (1 : Nat) = 1 then 0 else (j 1).val; rw [if_pos rfl])
  rw [h1, ← hy]
  exact broadcastInDim_apply _ bcast_S1300000_S1300000x1_0 w (ix2 (j 0) 0) (ix1 (j 0)) (fun a => match a with
    | ⟨0, _⟩ => by show (j 0).val = if (1300000 : Nat) = 1 then 0 else (j 0).val; rw [if_neg (by decide)])

/-- The second region's function at node `v`, feature `c`. -/
theorem finalize_apply (acc : FVec Ideal S50000x64 .f32) (d2 : FVec Ideal S50000x1 .f32) (b2 : FVec Ideal S1x64 .f32)
    (v : Fin 50000) (c : Fin 64) :
    finalize acc d2 b2 (ix2 v c) = max (acc (ix2 v c) * d2 (ix2 v 0) + b2 (ix2 0 c)) (Ideal.ofBits .f32 0x00000000#32) := rfl

/-- The first region's function at node `u`, feature `c`. -/
theorem scaledProj_apply (x : FVec Ideal S50000x64 .f32) (W : FVec Ideal S64x64 .f32) (d2 : FVec Ideal S50000x1 .f32)
    (u : Fin 50000) (c : Fin 64) :
    scaledProj x W d2 (ix2 u c) = val_main_v33 (F := Ideal) x W (ix2 u c) * d2 (ix2 u 0) := rfl

end Cert.Gcn

end
-- ==== Proof.Bridge.lean ====
/-
  The two programs compute one function.

  At node `v` and feature `c`, with `E(v)` the edges (self loops included) whose destination word is `v`, `s(e)` the
  source row of edge `e`, `w(e)` its weight, `d` the node factor and `xw = x · W`:

    kernel     max ( (∑_{e ∈ E(v)} (xw[s e, c] · d[s e]) · w e) · d[v] + b[c] ) 0
    reference  max ( (∑_{e ∈ E(v)} xw[s e, c] · ((d[s e] · w e) · d[v])) + b[c] ) 0

  The kernel applies the destination's factor once, after the sum; the reference applies it to every message. The
  factor is non-negative and finite whatever the degree is, so it distributes over the sum (no finiteness of the data is
  used), and termwise the two products are one by associativity. Both sums run over the same set of updates: the two
  scatters have the same dimension numbers and the same destination words. The sources are rows of the table by the
  precondition, so the kernel's masked gather fills nothing and all gathers read the row they name.
-/
import proofs.«409217_j82686710383106_3_alg».proof.Proof.HostValues
import proofs.«409217_j82686710383106_3_alg».proof.Proof.Indexing
import proofs.«409217_j82686710383106_3_alg».proof.Proof.FactorLaw
import proofs.«409217_j82686710383106_3_alg».proof.Proof.SharedValues
import proofs.«409217_j82686710383106_3_alg».proof.Proof.IndexReads
import Idealize.ShloMosaic.PureOps.Ideal.Laws

set_option maxRecDepth 16384

noncomputable section

namespace Cert.Gcn

open Idealize.ShloMosaic Idealize.ShloMosaic.ValueIdx
open Cert.KernelIdeal
open Cert.KernelIdeal.Facts₀
open Cert.ReferenceIdeal.Read

/-! ## Two facts about an accumulating scatter at the ideal instance -/

/-- Scaling an accumulating scatter's element by a non-negative finite factor scales the operand's element and every
    update: the factor distributes over the element plus the sum of the updates landing on it. -/
theorem scatterAdd_mul {s si su : Shape} (d : ScatterDims s si su) {w : Nat} (x : s.Idx → EReal) (idx : IVec si w)
    (upd : su.Idx → EReal) (i : s.Idx) {k : EReal} (h0 : 0 ≤ k) (ht : k ≠ ⊤) :
    Ideal.hostScatterAdd d x idx upd i * k = Ideal.hostScatterAdd d (fun i => x i * k) idx (fun j => upd j * k) i := by
  unfold Ideal.hostScatterAdd
  rw [EReal.right_distrib_of_nonneg_of_ne_top h0 ht, sum_mul_of_nonneg_ne_top _ _ h0 ht]

/-- An accumulating scatter's element depends only on the operand's element and on the updates that land on it. -/
theorem scatterAdd_congr {s si su : Shape} (d : ScatterDims s si su) {w : Nat} (x x' : s.Idx → EReal) (idx : IVec si w)
    (upd upd' : su.Idx → EReal) (i : s.Idx) (hx : x i = x' i)
    (hu : ∀ j, d.resultIdx? j idx = some i → upd j = upd' j) :
    Ideal.hostScatterAdd d x idx upd i = Ideal.hostScatterAdd d x' idx upd' i := by
  unfold Ideal.hostScatterAdd
  rw [hx]
  exact congrArg (x' i + ·) (Finset.sum_congr rfl fun j hj => hu j (Finset.mem_filter.1 hj).2)

/-! ## The accumulated messages -/

section Acc

variable (x : FVec Ideal S50000x64 .f32) (ei : IVec S2x1250000 32) (ea : FVec Ideal S1250000 .f32) (W : FVec Ideal S64x64 .f32)
variable (hs : ∀ e : S1300000.Idx, 0 ≤ (kSrc ei e).toInt ∧ (kSrc ei e).toInt < 50000)

/-- The kernel's per-update rows: the gathered rows of the scaled product, times the edge weight. -/
abbrev kMsg : FVec Ideal S1300000x64 .f32 :=
  mulf (takeRows (scaledProj x W (kCol ei ea)) (kSrc ei))
    (broadcastInDim S1300000x64 ![0, 1] bcast_S1300000x1_S1300000x64_0_1
      (broadcastInDim S1300000x1 ![0] bcast_S1300000_S1300000x1_0 (kEw ea)))

/-- The destination words as the one-column array of scatter indices. -/
abbrev dstCol : IVec S1300000x1 32 := broadcastInDim S1300000x1 ![0] bcast_S1300000_S1300000x1_0 (kDst ei)

/-- The kernel's accumulator is the accumulating scatter of its per-update rows. -/
theorem kAcc_eq : kAcc x ei ea W
    = Ideal.hostScatterAdd scatter_S50000x64_S1300000x1_S1300000x64_1_0_0_1
        (broadcastInDim S50000x64 ![] bcast_S_S50000x64 (constant (F := Ideal) S_ .f32 0x00000000#32)) (dstCol ei) (kMsg x ei ea W) := rfl

/-- The reference's accumulator is the accumulating scatter, at the same destinations, of its messages. -/
theorem refAcc_eq : val_main_v46 (F := Ideal) x ei ea W
    = Ideal.hostScatterAdd scatter_S50000x64_S1300000x1_S1300000x64_1_0_0_1 (val_main_v44 (F := Ideal)) (dstCol ei) (val_main_v43 (F := Ideal) x ei ea W) := rfl

/-! ### The indexed operations at an update with explicit coordinates `(e, q)` -/

theorem takeRows_at (tbl : FVec Ideal S50000x64 .f32) (s : IVec S1300000 32) (e : Fin 1300000) (q : Fin 64)
    (h0 : 0 ≤ (s (ix1 e)).toInt) (h1 : (s (ix1 e)).toInt < 50000) :
    takeRows tbl s (ix2 e q) = tbl (ix2 (rowOf (s (ix1 e)) h0 h1) q) := takeRows_apply tbl s (ix2 e q) h0 h1

theorem gatherRows_at (tbl : FVec Ideal S50000x64 .f32) (s : IVec S1300000 32) (e : Fin 1300000) (q : Fin 64)
    (h0 : 0 ≤ (s (ix1 e)).toInt) (h1 : (s (ix1 e)).toInt < 50000) :
    Host.gather Cert.ReferenceIdeal.gather_S50000x64_S1300000x1_S1300000x64_1_0_n_n_0_1_164 tbl (startCol s) (ix2 e q)
      = tbl (ix2 (rowOf (s (ix1 e)) h0 h1) q) := gatherRows_apply tbl s (ix2 e q) h0 h1

theorem lands_at (d : IVec S1300000 32) (e : Fin 1300000) (q : Fin 64) (v : Fin 50000) (c : Fin 64)
    (h : scatter_S50000x64_S1300000x1_S1300000x64_1_0_0_1.resultIdx? (ix2 e q) (broadcastInDim S1300000x1 ![0] bcast_S1300000_S1300000x1_0 d) = some (ix2 v c)) :
    (d (ix1 e)).toInt = (v.val : Int) ∧ q = c := lands_row d (ix2 e q) (ix2 v c) h

theorem perEdge_at {α : Type} (w : S1300000.Idx → α) (e : Fin 1300000) (q : Fin 64) :
    broadcastInDim S1300000x64 ![0, 1] bcast_S1300000x1_S1300000x64_0_1
      (broadcastInDim S1300000x1 ![0] bcast_S1300000_S1300000x1_0 w) (ix2 e q) = w (ix1 e) := perEdge_apply w (ix2 e q)

include hs in
/-- One message: the kernel's, times the destination's factor, is the reference's. -/
theorem message_eq (v : Fin 50000) (c : Fin 64) (e : Fin 1300000) (q : Fin 64)
    (hj : scatter_S50000x64_S1300000x1_S1300000x64_1_0_0_1.resultIdx? (ix2 e q) (dstCol ei) = some (ix2 v c)) :
    kMsg x ei ea W (ix2 e q) * kDinv ei ea (ix1 v) = val_main_v43 (F := Ideal) x ei ea W (ix2 e q) := by
  have hl := lands_at (kDst ei) e q v c hj
  have hs0 := (hs (ix1 e)).1
  have hs1 := (hs (ix1 e)).2
  have hd0 : 0 ≤ (kDst ei (ix1 e)).toInt := by rw [hl.1]; exact Int.natCast_nonneg _
  have hd1 : (kDst ei (ix1 e)).toInt < 50000 := by rw [hl.1]; exact_mod_cast v.isLt
  have hrow : rowOf (kDst ei (ix1 e)) hd0 hd1 = v := Fin.ext (by
    show (kDst ei (ix1 e)).toInt.toNat = v.val
    rw [hl.1]; exact Int.toNat_natCast _)
  have he : idx_main_v41 (idx_main_v42 (ix2 e q)) = (ix1 e : S1300000.Idx) := funext fun a => match a with | ⟨0, _⟩ => rfl
  have hk : kMsg x ei ea W (ix2 e q)
      = val_main_v33 (F := Ideal) x W (ix2 (rowOf (kSrc ei (ix1 e)) hs0 hs1) q)
          * kDinv ei ea (ix1 (rowOf (kSrc ei (ix1 e)) hs0 hs1)) * kEw ea (ix1 e) := by
    unfold kMsg
    rw [mulf_apply, perEdge_at, takeRows_at _ _ e q hs0 hs1, scaledProj_apply, kCol_apply]
  have hr : val_main_v43 (F := Ideal) x ei ea W (ix2 e q)
      = val_main_v33 (F := Ideal) x W (ix2 (rowOf (kSrc ei (ix1 e)) hs0 hs1) q)
          * (kDinv ei ea (ix1 (rowOf (kSrc ei (ix1 e)) hs0 hs1)) * kEw ea (ix1 e) * kDinv ei ea (ix1 v)) := by
    rw [val_main_v43_apply, val_main_v42_apply, val_main_v41_apply, he, val_main_v32_apply, val_main_v24_apply]
    unfold val_main_v40 val_main_v23 val_main_v31
    rw [refSrcRows_eq, refSrcNode_eq, refDstNode_eq,
      gatherRows_at _ _ e q hs0 hs1, gatherNode_apply _ _ (ix1 e) hs0 hs1, gatherNode_apply _ _ (ix1 e) hd0 hd1,
      hrow, ← kDinv_eq, ← kEw_eq]
    rfl
  rw [hk, hr]
  simp only [mul_assoc]

include hs in
/-- The kernel's accumulator, scaled by the destination's factor, is the reference's accumulator. -/
theorem acc_scaled (v : Fin 50000) (c : Fin 64) :
    kAcc x ei ea W (ix2 v c) * kDinv ei ea (ix1 v) = val_main_v46 (F := Ideal) x ei ea W (ix2 v c) := by
  have hd := kDinv_range ei ea (ix1 v)
  rw [kAcc_eq, refAcc_eq, scatterAdd_mul _ _ _ _ _ hd.1 hd.2]
  refine scatterAdd_congr _ _ _ _ _ _ _ ?_ fun j hj => ?_
  · show broadcastInDim S50000x64 ![] bcast_S_S50000x64 (constant (F := Ideal) S_ .f32 0x00000000#32) (ix2 v c) * kDinv ei ea (ix1 v)
      = val_main_v44 (F := Ideal) (ix2 v c)
    rw [zeros_apply, zero_mul]
    exact (zeros_apply _ _).symm
  · obtain ⟨e, q, rfl⟩ : ∃ (e : Fin 1300000) (q : Fin 64), j = ix2 e q := ⟨j 0, j 1, eq_ix2 j⟩
    exact message_eq x ei ea W hs v c e q hj

end Acc

/-! ## The results -/

/-- Under the source-range hypothesis the kernel program's result is the reference's, element by element. -/
theorem kernel_eq_reference (x : FVec Ideal S50000x64 .f32) (ei : IVec S2x1250000 32) (ea : FVec Ideal S1250000 .f32)
    (W : FVec Ideal S64x64 .f32) (b : FVec Ideal S64 .f32)
    (hs : ∀ e : S1300000.Idx, 0 ≤ (kSrc ei e).toInt ∧ (kSrc ei e).toInt < 50000) :
    kernelValue x ei ea W b = val_main_v50 (F := Ideal) x ei ea W b := by
  funext i
  obtain ⟨v, c, rfl⟩ : ∃ (v : Fin 50000) (c : Fin 64), i = ix2 v c := ⟨i 0, i 1, eq_ix2 i⟩
  have hb : shapeCast S1x64 b shapeCasts_S64_S1x64 (ix2 0 c) = b (idx_main_v47 (idx_main_v48 (ix2 v c))) :=
    (biasRow_apply b c).trans (congrArg b (funext fun a => match a with | ⟨0, _⟩ => rfl))
  unfold kernelValue
  rw [finalize_apply, kCol_apply, acc_scaled x ei ea W hs v c, hb,
    val_main_v50_apply, val_main_v49_apply, val_main_call1_v0_apply, val_main_call1_cst_apply, val_main_v48_apply, val_main_v47_apply]
  rfl

end Cert.Gcn

end
-- ==== Proof.SourceRange.lean ====
/-
  What the precondition says about the source indices.

  The precondition's last conjunct says every word of the edge list's row 0 lies in `[0, 50000)` as a signed integer.
  The source vector is that row followed by the self loops `0, 1, …, 49999`, so every one of its 1300000 words lies in
  `[0, 50000)`: the first 1250000 by the precondition, the rest because word `k` of the iota is `k < 50000`.
-/
import proofs.«409217_j82686710383106_3_alg».proof.Proof.HostValues
import proofs.«409217_j82686710383106_3_alg».proof.Pre_finite_inputs
import proofs.«409217_j82686710383106_3_alg».proof.Proof.Gen.Pre_finite_inputs
import Idealize.ShloMosaic.Lib.ReduceAll
import Idealize.ShloMosaic.Lib.StableHlo.Predicate
import Idealize.ShloMosaic.Lib.ValueIdx
import Idealize.ShloMosaic.Lib.Pipeline.Value

noncomputable section

namespace Cert.Gcn

open Idealize.ShloMosaic Idealize.ShloMosaic.ValueIdx

/-- A word that passes the signed compares `0 ≤ w` and `w < 50000` lies in `[0, 50000)` as a signed integer. -/
theorem toInt_mem_of_cmpi (w : BitVec 32) (h0 : IntOp.cmpi .sge w 0#32 = 1#1) (h1 : IntOp.cmpi .slt w 50000#32 = 1#1) :
    0 ≤ w.toInt ∧ w.toInt < 50000 := by
  have e0 : (0#32 : BitVec 32).toInt = 0 := by decide
  have e1 : (50000#32 : BitVec 32).toInt = 50000 := by decide
  have a := IntOp.cmpi_sge.1 h0
  have c := IntOp.cmpi_slt.1 h1
  rw [e0] at a; rw [e1] at c
  exact ⟨a, c⟩

/-- Word `k` of the iota over 50000 positions is `k` itself, which lies in `[0, 50000)`. -/
theorem iota_mem (k : Cert.KernelIdeal.S50000.Idx) :
    0 ≤ (iotaInDim Cert.KernelIdeal.S50000 32 0 k).toInt ∧ (iotaInDim Cert.KernelIdeal.S50000 32 0 k).toInt < 50000 := by
  have hk : (k 0).val < 50000 := (k 0).isLt
  have e : (iotaInDim Cert.KernelIdeal.S50000 32 0 k).toInt = ((k 0).val : Int) :=
    StableHlo.Predicate.toInt_ofNat_small _ (by omega)
  rw [e]; omega

open Cert.KernelIdeal Cert.KernelIdeal.Facts₀ in
/-- Two vectors of words in `[0, 50000)`, of 1250000 and of 50000 words, laid end to end: all 1300000 words lie in
    `[0, 50000)`. A position below 1250000 reads the first vector there, any other the second 1250000 earlier. -/
theorem cat_mem (r : IVec S1250000 32) (hr : ∀ k : S1250000.Idx, 0 ≤ (r k).toInt ∧ (r k).toInt < 50000)
    (q : IVec S50000 32) (hq : ∀ k : S50000.Idx, 0 ≤ (q k).toInt ∧ (q k).toInt < 50000)
    (e : S1300000.Idx) :
    0 ≤ (concatenate S1300000 0 [⟨S1250000, r⟩, ⟨S50000, q⟩] concatenates_S1250000_S50000_S1300000_d0 e).toInt ∧
      (concatenate S1300000 0 [⟨S1250000, r⟩, ⟨S50000, q⟩] concatenates_S1250000_S50000_S1300000_d0 e).toInt < 50000 := by
  have he : (e 0).val < 1300000 := (e 0).isLt
  by_cases hlt : (e 0).val < 1250000
  · have h := concatenate_pair_apply_left (t := S1300000) (s₁ := S1250000) (s₂ := S50000) 0 r q
      concatenates_S1250000_S50000_S1300000_d0 e rfl (ix1 ⟨(e 0).val, hlt⟩)
      (fun b => by match b with | ⟨0, _⟩ => rfl)
    rw [h]; exact hr _
  · have h := concatenate_pair_apply_right (t := S1300000) (s₁ := S1250000) (s₂ := S50000) 0 r q
      concatenates_S1250000_S50000_S1300000_d0 e rfl rfl (ix1 ⟨(e 0).val - 1250000, by omega⟩)
      (fun b hb => by match b with | ⟨0, _⟩ => exact absurd rfl hb)
      (by show (e 0).val - 1250000 + 1250000 = (e 0).val; omega)
    rw [h]; exact hq _

open Cert.KernelIdeal Cert.KernelIdeal.Facts₀ in
/-- The precondition's last conjunct read at a position of row 0 of the edge list. The precondition is a conjunction of
    "all" reductions; the last one reduces, by `and` from 1, the elementwise conjunction of the two signed compares of the row
    against 0 and 50000. The result being 1 makes every element 1, so both compares hold at every position. -/
theorem row_mem (x : FVec Ideal S50000x64 .f32) (ei : IVec S2x1250000 32) (ea : FVec Ideal S1250000 .f32)
    (W : FVec Ideal S64x64 .f32) (b : FVec Ideal S64 .f32)
    (hpre : Cert.Pre_finite_inputs.fn (F := Ideal) x ei ea W b = fun _ => 1#1) (k : S1250000.Idx) :
    0 ≤ ((shapeCast S1250000 (extractStridedSlice S1x1250000 ![0, 0] ei slices_S2x1250000_S1x1250000_0_0)
        shapeCasts_S1x1250000_S1250000 : IVec S1250000 32) k).toInt ∧
      ((shapeCast S1250000 (extractStridedSlice S1x1250000 ![0, 0] ei slices_S2x1250000_S1x1250000_0_0)
        shapeCasts_S1x1250000_S1250000 : IVec S1250000 32) k).toInt < 50000 := by
  have e := congrFun hpre ValueIdx.ix0
  unfold Cert.Pre_finite_inputs.fn Cert.Pre_finite_inputs.fn_part1 at e
  dsimp only at e
  have e2 := (IntOp.andi_eq_one.1 e).2
  haveI : Subsingleton Cert.Pre_finite_inputs.S_.Idx := ⟨fun a b => funext fun d => d.elim0⟩
  have e3 := Host.reduce_andi_all _ _ _ _ _ e2 k
  obtain ⟨h0, h1⟩ := IntOp.andi_eq_one.1 e3
  exact toInt_mem_of_cmpi _ h0 h1

/-- Under the precondition every source index (edge sources, then the self loops) is a row of the node table. -/
theorem src_in_range (x : FVec Ideal Cert.KernelIdeal.S50000x64 .f32) (ei : IVec Cert.KernelIdeal.S2x1250000 32) (ea : FVec Ideal Cert.KernelIdeal.S1250000 .f32)
    (W : FVec Ideal Cert.KernelIdeal.S64x64 .f32) (b : FVec Ideal Cert.KernelIdeal.S64 .f32)
    (hpre : Cert.Pre_finite_inputs.fn (F := Ideal) x ei ea W b = fun _ => 1#1) :
    ∀ e : Cert.KernelIdeal.S1300000.Idx, 0 ≤ (kSrc ei e).toInt ∧ (kSrc ei e).toInt < 50000 := by
  intro e
  unfold kSrc
  exact cat_mem _ (row_mem x ei ea W b hpre) _ iota_mem e

end Cert.Gcn

end
-- ==== Proof.lean ====
/-
  The certificate of a graph convolution with self loops and symmetric normalisation, followed by a bias and a ReLU.

  With src / dst the edge list's two rows followed by the 50000 self loops, w the edge weights followed by ones,
  deg[v] = ∑_{dst e = v} w e, d[v] = 1/√deg[v] where deg[v] > 0 and 0 elsewhere, and xw = x · W, the reference computes

      out[v, c] = max ( ∑_{dst e = v} xw[src e, c] · ((d[src e] · w e) · d[v]) + b[c] ) 0 .

  The kernel program folds the two node factors into its two dense regions: the first region writes xw[u, c] · d[u], the
  host gathers its rows at the sources, scales them by the edge weights and scatter-adds them at the destinations, and the
  second region multiplies the accumulated row of v by d[v], adds the bias and clips at zero.

  Equality. The node factor is non-negative and finite for every extended-real degree, so it distributes over the sum
  (the extended reals do not distribute in general; a non-negative finite factor is the case that does), and term by term
  the two products agree by associativity and commutativity alone: the data's finiteness is never used. What is used is
  the precondition's last conjunct, that the edge list's source row holds rows of the node table: the kernel's row
  gather replaces an out-of-table row by a fill word where the reference's gather clamps, and the two differ there.
  The destinations need nothing: an update whose destination is outside the table is dropped by both scatters.

  The kernel program's run comes from its frame over the two regions with the result buffer named; the contents of the
  buffers are read boundary by boundary down to the launch memory; the reference's run and its stages are read back
  operation by operation.
-/
import proofs.«409217_j82686710383106_3_alg».proof.Defs
import proofs.«409217_j82686710383106_3_alg».proof.Proof.Gen.Kernel
import proofs.«409217_j82686710383106_3_alg».proof.Proof.Gen.Kernel.Frame
import proofs.«409217_j82686710383106_3_alg».proof.Proof.Gen.KernelIdeal
import proofs.«409217_j82686710383106_3_alg».proof.Proof.Gen.KernelIdeal.Frame
import proofs.«409217_j82686710383106_3_alg».proof.Proof.Gen.ReferenceIdeal
import proofs.«409217_j82686710383106_3_alg».proof.Proof.Gen.ReferenceIdeal.Run
import proofs.«409217_j82686710383106_3_alg».proof.Proof.Gen.ReferenceIdeal.Read
import proofs.«409217_j82686710383106_3_alg».proof.Proof.Gen.Pre_finite_inputs
import proofs.«409217_j82686710383106_3_alg».proof.Proof.RunResult
import proofs.«409217_j82686710383106_3_alg».proof.Proof.KernelValue
import proofs.«409217_j82686710383106_3_alg».proof.Proof.Bridge
import proofs.«409217_j82686710383106_3_alg».proof.Proof.SourceRange
import Idealize.ShloMosaic.Adequacy
import Idealize.ShloMosaic.Init

noncomputable section

namespace Cert.Proof

open Idealize.ShloMosaic Idealize.ShloMosaic.TcCoe Idealize.SL.Sem

/-- The word-level kernel program runs and leaves its arguments as launched. -/
theorem frame_kernel : Cert.frame_Kernel := fun m ρ _ => Cert.Kernel.Gen.frame m ρ

/-- So does the kernel program read at the ideal instance. -/
theorem frame_kernelIdeal : Cert.frame_KernelIdeal := fun m ρ _ => Cert.KernelIdeal.Gen.frame m ρ

/-- The reference runs and leaves its arguments as launched: its run, the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories agreeing on the arguments both programs end at the kernel program's value of them. -/
theorem algebraic : Cert.algebraic_KernelIdeal_ReferenceIdeal := by
  intro m ρ m' ρ' hpre hagree
  refine ⟨fun c => Cert.Gcn.kernelValue (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)), ?_, ?_⟩
  · exact (θ_run Cert.KernelIdeal.defs _ _).mono (fun r h c => ⟨(h c).1.trans (Cert.Gcn.result_value m ρ c), (h c).2⟩)
      (Cert.Gcn.Run.run_result (F := Ideal) m ρ)
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v50_eq, (hagree c).1, (hagree c).2.1, (hagree c).2.2.1, (hagree c).2.2.2.1, (hagree c).2.2.2.2]
    exact (Cert.Gcn.kernel_eq_reference _ _ _ _ _ (Cert.Gcn.src_in_range _ _ _ _ _ (hpre c))).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
